-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1 : Shape := ⟨2, ![8192, 1]⟩
abbrev S8192x8192 : Shape := ⟨2, ![8192, 8192]⟩
abbrev S_ : Shape := ⟨0, ![]⟩

class Facts : Prop where
  bcast_S_S8192x1 : S_.BroadcastsInDim S8192x1 (![] : Fin 0 → Fin S8192x1.rank)
  reducesTo_S8192x1_S_d0_1 : S8192x1.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn_part4 {F : FTy → Type} [FloatOps F] (main_arg14 : FVec F S8192x1 .f32) (main_v63 : IVec S_ 1) (main_v67 : IVec S_ 1) : IVec S_ 1 :=
  let main_v68 : IVec S_ 1 := andi main_v63 main_v67
  let main_v69 : FVec F S8192x1 .f32 := Host.absf main_arg14
  let main_cst_26 : FVec F S_ .f32 := constant S_ .f32 0x7F800000#32
  let main_v70 : FVec F S8192x1 .f32 := broadcastInDim S8192x1 ![] bcast_S_S8192x1 main_cst_26
  let main_v71 : IVec S8192x1 1 := cmpf .olt main_v69 main_v70
  let main_c_27 : IVec S_ 1 := constantI S_ 1 1#1
  let main_v72 : IVec S_ 1 := (fun x v => Host.reduce IntOp.andi x v reducesTo_S8192x1_S_d0_1 h_S_) main_v71 main_c_27
  let main_v73 : IVec S_ 1 := andi main_v68 main_v72
  main_v73

def fn_part3 {F : FTy → Type} [FloatOps F] (main_arg11 : FVec F S8192x1 .f32) (main_arg12 : FVec F S8192x8192 .f32) (main_arg13 : FVec F S8192x8192 .f32) (main_arg14 : FVec F S8192x1 .f32) (main_v48 : IVec S_ 1) (main_v49 : FVec F S8192x8192 .f32) (main_v50 : FVec F S8192x8192 .f32) : IVec S_ 1 :=
  let main_v51 : IVec S8192x8192 1 := cmpf .olt main_v49 main_v50
  let main_c_19 : IVec S_ 1 := constantI S_ 1 1#1
  let main_v52 : IVec S_ 1 := (fun x v => Host.reduce IntOp.andi x v reducesTo_S8192x8192_S_d0_1 h_S_) main_v51 main_c_19
  let main_v53 : IVec S_ 1 := andi main_v48 main_v52
  let main_v54 : FVec F S8192x1 .f32 := Host.absf main_arg11
  let main_cst_20 : FVec F S_ .f32 := constant S_ .f32 0x7F800000#32
  let main_v55 : FVec F S8192x1 .f32 := broadcastInDim S8192x1 ![] bcast_S_S8192x1 main_cst_20
  let main_v56 : IVec S8192x1 1 := cmpf .olt main_v54 main_v55
  let main_c_21 : IVec S_ 1 := constantI S_ 1 1#1
  let main_v57 : IVec S_ 1 := (fun x v => Host.reduce IntOp.andi x v reducesTo_S8192x1_S_d0_1 h_S_) main_v56 main_c_21
  let main_v58 : IVec S_ 1 := andi main_v53 main_v57
  let main_v59 : FVec F S8192x8192 .f32 := Host.absf main_arg12
  let main_cst_22 : FVec F S_ .f32 := constant S_ .f32 0x7F800000#32
  let main_v60 : FVec F S8192x8192 .f32 := broadcastInDim S8192x8192 ![] bcast_S_S8192x8192 main_cst_22
  let main_v61 : IVec S8192x8192 1 := cmpf .olt main_v59 main_v60
  let main_c_23 : IVec S_ 1 := constantI S_ 1 1#1
  let main_v62 : IVec S_ 1 := (fun x v => Host.reduce IntOp.andi x v reducesTo_S8192x8192_S_d0_1 h_S_) main_v61 main_c_23
  let main_v63 : IVec S_ 1 := andi main_v58 main_v62
  let main_v64 : FVec F S8192x8192 .f32 := Host.absf main_arg13
  let main_cst_24 : FVec F S_ .f32 := constant S_ .f32 0x7F800000#32
  let main_v65 : FVec F S8192x8192 .f32 := broadcastInDim S8192x8192 ![] bcast_S_S8192x8192 main_cst_24
  let main_v66 : IVec S8192x8192 1 := cmpf .olt main_v64 main_v65
  let main_c_25 : IVec S_ 1 := constantI S_ 1 1#1
  let main_v67 : IVec S_ 1 := (fun x v => Host.reduce IntOp.andi x v reducesTo_S8192x8192_S_d0_1 h_S_) main_v66 main_c_25
  fn_part4 (F := F) main_arg14 main_v63 main_v67

def fn_part2 {F : FTy → Type} [FloatOps F] (main_arg7 : FVec F S8192x8192 .f32) (main_arg8 : FVec F S8192x1 .f32) (main_arg9 : FVec F S8192x8192 .f32) (main_arg10 : FVec F S8192x8192 .f32) (main_arg11 : FVec F S8192x1 .f32) (main_arg12 : FVec F S8192x8192 .f32) (main_arg13 : FVec F S8192x8192 .f32) (main_arg14 : FVec F S8192x1 .f32) (main_v33 : IVec S_ 1) : IVec S_ 1 :=
  let main_v34 : FVec F S8192x8192 .f32 := Host.absf main_arg7
  let main_cst_12 : FVec F S_ .f32 := constant S_ .f32 0x7F800000#32
  let main_v35 : FVec F S8192x8192 .f32 := broadcastInDim S8192x8192 ![] bcast_S_S8192x8192 main_cst_12
  let main_v36 : IVec S8192x8192 1 := cmpf .olt main_v34 main_v35
  let main_c_13 : IVec S_ 1 := constantI S_ 1 1#1
  let main_v37 : IVec S_ 1 := (fun x v => Host.reduce IntOp.andi x v reducesTo_S8192x8192_S_d0_1 h_S_) main_v36 main_c_13
  let main_v38 : IVec S_ 1 := andi main_v33 main_v37
  let main_v39 : FVec F S8192x1 .f32 := Host.absf main_arg8
  let main_cst_14 : FVec F S_ .f32 := constant S_ .f32 0x7F800000#32
  let main_v40 : FVec F S8192x1 .f32 := broadcastInDim S8192x1 ![] bcast_S_S8192x1 main_cst_14
  let main_v41 : IVec S8192x1 1 := cmpf .olt main_v39 main_v40
  let main_c_15 : IVec S_ 1 := constantI S_ 1 1#1
  let main_v42 : IVec S_ 1 := (fun x v => Host.reduce IntOp.andi x v reducesTo_S8192x1_S_d0_1 h_S_) main_v41 main_c_15
  let main_v43 : IVec S_ 1 := andi main_v38 main_v42
  let main_v44 : FVec F S8192x8192 .f32 := Host.absf main_arg9
  let main_cst_16 : FVec F S_ .f32 := constant S_ .f32 0x7F800000#32
  let main_v45 : FVec F S8192x8192 .f32 := broadcastInDim S8192x8192 ![] bcast_S_S8192x8192 main_cst_16
  let main_v46 : IVec S8192x8192 1 := cmpf .olt main_v44 main_v45
  let main_c_17 : IVec S_ 1 := constantI S_ 1 1#1
  let main_v47 : IVec S_ 1 := (fun x v => Host.reduce IntOp.andi x v reducesTo_S8192x8192_S_d0_1 h_S_) main_v46 main_c_17
  let main_v48 : IVec S_ 1 := andi main_v43 main_v47
  let main_v49 : FVec F S8192x8192 .f32 := Host.absf main_arg10
  let main_cst_18 : FVec F S_ .f32 := constant S_ .f32 0x7F800000#32
  let main_v50 : FVec F S8192x8192 .f32 := broadcastInDim S8192x8192 ![] bcast_S_S8192x8192 main_cst_18
  fn_part3 (F := F) main_arg11 main_arg12 main_arg13 main_arg14 main_v48 main_v49 main_v50

def fn_part1 {F : FTy → Type} [FloatOps F] (main_arg4 : FVec F S8192x8192 .f32) (main_arg5 : FVec F S8192x1 .f32) (main_arg6 : FVec F S8192x8192 .f32) (main_arg7 : FVec F S8192x8192 .f32) (main_arg8 : FVec F S8192x1 .f32) (main_arg9 : FVec F S8192x8192 .f32) (main_arg10 : FVec F S8192x8192 .f32) (main_arg11 : FVec F S8192x1 .f32) (main_arg12 : FVec F S8192x8192 .f32) (main_arg13 : FVec F S8192x8192 .f32) (main_arg14 : FVec F S8192x1 .f32) (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  let main_v19 : FVec F S8192x8192 .f32 := Host.absf main_arg4
  let main_cst_6 : FVec F S_ .f32 := constant S_ .f32 0x7F800000#32
  let main_v20 : FVec F S8192x8192 .f32 := broadcastInDim S8192x8192 ![] bcast_S_S8192x8192 main_cst_6
  let main_v21 : IVec S8192x8192 1 := cmpf .olt main_v19 main_v20
  let main_c_7 : IVec S_ 1 := constantI S_ 1 1#1
  let main_v22 : IVec S_ 1 := (fun x v => Host.reduce IntOp.andi x v reducesTo_S8192x8192_S_d0_1 h_S_) main_v21 main_c_7
  let main_v23 : IVec S_ 1 := andi main_v18 main_v22
  let main_v24 : FVec F S8192x1 .f32 := Host.absf main_arg5
  let main_cst_8 : FVec F S_ .f32 := constant S_ .f32 0x7F800000#32
  let main_v25 : FVec F S8192x1 .f32 := broadcastInDim S8192x1 ![] bcast_S_S8192x1 main_cst_8
  let main_v26 : IVec S8192x1 1 := cmpf .olt main_v24 main_v25
  let main_c_9 : IVec S_ 1 := constantI S_ 1 1#1
  let main_v27 : IVec S_ 1 := (fun x v => Host.reduce IntOp.andi x v reducesTo_S8192x1_S_d0_1 h_S_) main_v26 main_c_9
  let main_v28 : IVec S_ 1 := andi main_v23 main_v27
  let main_v29 : FVec F S8192x8192 .f32 := Host.absf main_arg6
  let main_cst_10 : FVec F S_ .f32 := constant S_ .f32 0x7F800000#32
  let main_v30 : FVec F S8192x8192 .f32 := broadcastInDim S8192x8192 ![] bcast_S_S8192x8192 main_cst_10
  let main_v31 : IVec S8192x8192 1 := cmpf .olt main_v29 main_v30
  let main_c_11 : IVec S_ 1 := constantI S_ 1 1#1
  let main_v32 : IVec S_ 1 := (fun x v => Host.reduce IntOp.andi x v reducesTo_S8192x8192_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8192x1 .f32) (main_arg1 : FVec F S8192x1 .f32) (main_arg2 : FVec F S8192x1 .f32) (main_arg3 : FVec F S8192x8192 .f32) (main_arg4 : FVec F S8192x8192 .f32) (main_arg5 : FVec F S8192x1 .f32) (main_arg6 : FVec F S8192x8192 .f32) (main_arg7 : FVec F S8192x8192 .f32) (main_arg8 : FVec F S8192x1 .f32) (main_arg9 : FVec F S8192x8192 .f32) (main_arg10 : FVec F S8192x8192 .f32) (main_arg11 : FVec F S8192x1 .f32) (main_arg12 : FVec F S8192x8192 .f32) (main_arg13 : FVec F S8192x8192 .f32) (main_arg14 : FVec F S8192x1 .f32) : IVec S_ 1 :=
  let main_v0 : FVec F S8192x1 .f32 := Host.absf main_arg0
  let main_cst : FVec F S_ .f32 := constant S_ .f32 0x7F800000#32
  let main_v1 : FVec F S8192x1 .f32 := broadcastInDim S8192x1 ![] bcast_S_S8192x1 main_cst
  let main_v2 : IVec S8192x1 1 := cmpf .olt main_v0 main_v1
  let main_c : IVec S_ 1 := constantI S_ 1 1#1
  let main_v3 : IVec S_ 1 := (fun x v => Host.reduce IntOp.andi x v reducesTo_S8192x1_S_d0_1 h_S_) main_v2 main_c
  let main_v4 : FVec F S8192x1 .f32 := Host.absf main_arg1
  let main_cst_0 : FVec F S_ .f32 := constant S_ .f32 0x7F800000#32
  let main_v5 : FVec F S8192x1 .f32 := broadcastInDim S8192x1 ![] bcast_S_S8192x1 main_cst_0
  let main_v6 : IVec S8192x1 1 := cmpf .olt main_v4 main_v5
  let main_c_1 : IVec S_ 1 := constantI S_ 1 1#1
  let main_v7 : IVec S_ 1 := (fun x v => Host.reduce IntOp.andi x v reducesTo_S8192x1_S_d0_1 h_S_) main_v6 main_c_1
  let main_v8 : IVec S_ 1 := andi main_v3 main_v7
  let main_v9 : FVec F S8192x1 .f32 := Host.absf main_arg2
  let main_cst_2 : FVec F S_ .f32 := constant S_ .f32 0x7F800000#32
  let main_v10 : FVec F S8192x1 .f32 := broadcastInDim S8192x1 ![] bcast_S_S8192x1 main_cst_2
  let main_v11 : IVec S8192x1 1 := cmpf .olt main_v9 main_v10
  let main_c_3 : IVec S_ 1 := constantI S_ 1 1#1
  let main_v12 : IVec S_ 1 := (fun x v => Host.reduce IntOp.andi x v reducesTo_S8192x1_S_d0_1 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8192x1 : Shape := ⟨2, ![8192, 1]⟩
abbrev S8192x8192 : Shape := ⟨2, ![8192, 8192]⟩
abbrev S1x8192 : Shape := ⟨2, ![1, 8192]⟩
abbrev S8192x5 : Shape := ⟨2, ![8192, 5]⟩
abbrev S64x5 : Shape := ⟨2, ![64, 5]⟩
abbrev S64x8192 : Shape := ⟨2, ![64, 8192]⟩
abbrev S64x1 : Shape := ⟨2, ![64, 1]⟩

abbrev nBuf : Space → Nat
  | .hbm => 19
  | .vmem => 22
  | .smem => 0
  | _ => 0

abbrev bufTy : (tb : Table) → Fin (tcTables nBuf tb) → BufTy
  | .hbm, ⟨0, _⟩ => ⟨S8192x1, .f32⟩
  | .hbm, ⟨1, _⟩ => ⟨S8192x1, .f32⟩
  | .hbm, ⟨2, _⟩ => ⟨S8192x1, .f32⟩
  | .hbm, ⟨3, _⟩ => ⟨S8192x8192, .f32⟩
  | .hbm, ⟨4, _⟩ => ⟨S8192x8192, .f32⟩
  | .hbm, ⟨5, _⟩ => ⟨S8192x1, .f32⟩
  | .hbm, ⟨6, _⟩ => ⟨S8192x8192, .f32⟩
  | .hbm, ⟨7, _⟩ => ⟨S8192x8192, .f32⟩
  | .hbm, ⟨8, _⟩ => ⟨S8192x1, .f32⟩
  | .hbm, ⟨9, _⟩ => ⟨S8192x8192, .f32⟩
  | .hbm, ⟨10, _⟩ => ⟨S8192x8192, .f32⟩
  | .hbm, ⟨11, _⟩ => ⟨S8192x1, .f32⟩
  | .hbm, ⟨12, _⟩ => ⟨S8192x8192, .f32⟩
  | .hbm, ⟨13, _⟩ => ⟨S8192x8192, .f32⟩
  | .hbm, ⟨14, _⟩ => ⟨S8192x1, .f32⟩
  | .hbm, ⟨15, _⟩ => ⟨S1x8192, .f32⟩
  | .hbm, ⟨16, _⟩ => ⟨S1x8192, .f32⟩
  | .hbm, ⟨17, _⟩ => ⟨S8192x5, .f32⟩
  | .hbm, ⟨18, _⟩ => ⟨S8192x1, .f32⟩
  | .local _ .vmem, ⟨0, _⟩ => ⟨S1x8192, .f32⟩
  | .local _ .vmem, ⟨1, _⟩ => ⟨S1x8192, .f32⟩
  | .local _ .vmem, ⟨2, _⟩ => ⟨S64x5, .f32⟩
  | .local _ .vmem, ⟨3, _⟩ => ⟨S64x5, .f32⟩
  | .local _ .vmem, ⟨4, _⟩ => ⟨S64x8192, .f32⟩
  | .local _ .vmem, ⟨5, _⟩ => ⟨S64x8192, .f32⟩
  | .local _ .vmem, ⟨6, _⟩ => ⟨S64x8192, .f32⟩
  | .local _ .vmem, ⟨7, _⟩ => ⟨S64x8192, .f32⟩
  | .local _ .vmem, ⟨8, _⟩ => ⟨S64x8192, .f32⟩
  | .local _ .vmem, ⟨9, _⟩ => ⟨S64x8192, .f32⟩
  | .local _ .vmem, ⟨10, _⟩ => ⟨S64x8192, .f32⟩
  | .local _ .vmem, ⟨11, _⟩ => ⟨S64x8192, .f32⟩
  | .local _ .vmem, ⟨12, _⟩ => ⟨S64x8192, .f32⟩
  | .local _ .vmem, ⟨13, _⟩ => ⟨S64x8192, .f32⟩
  | .local _ .vmem, ⟨14, _⟩ => ⟨S64x8192, .f32⟩
  | .local _ .vmem, ⟨15, _⟩ => ⟨S64x8192, .f32⟩
  | .local _ .vmem, ⟨16, _⟩ => ⟨S64x8192, .f32⟩
  | .local _ .vmem, ⟨17, _⟩ => ⟨S64x8192, .f32⟩
  | .local _ .vmem, ⟨18, _⟩ => ⟨S64x8192, .f32⟩
  | .local _ .vmem, ⟨19, _⟩ => ⟨S64x8192, .f32⟩
  | .local _ .vmem, ⟨20, _⟩ => ⟨S64x1, .f32⟩
  | .local _ .vmem, ⟨21, _⟩ => ⟨S64x1, .f32⟩
  | _, _ => ⟨S8192x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x8192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x8192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x8192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S8192x1_S1x8192 : S8192x1.ShapeCasts S1x8192
  concatenates_S8192x1_S8192x1_S8192x1_S8192x1_S8192x1_S8192x5_d1 : Shape.Concatenates [S8192x1, S8192x1, S8192x1, S8192x1, S8192x1] S8192x5 1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S64x5_S64x5_0_0 : ∀ a, (![0, 0] : Fin 2 → Nat) a + S64x5.size a ≤ S64x5.size a
  h_S64x5 : 0 < S64x5.numel
  shapeCasts_S64x5_S64x5 : S64x5.ShapeCasts S64x5
  slices_S64x5_o0_0_S64x1 : S64x5.Slices ![0, 0] S64x1
  slices_S64x5_o0_1_S64x1 : S64x5.Slices ![0, 1] S64x1
  slices_S64x5_o0_2_S64x1 : S64x5.Slices ![0, 2] S64x1
  slices_S64x5_o0_3_S64x1 : S64x5.Slices ![0, 3] S64x1
  slices_S64x5_o0_4_S64x1 : S64x5.Slices ![0, 4] S64x1
  inb_S64x8192_S64x8192_0_0 : ∀ a, (![0, 0] : Fin 2 → Nat) a + S64x8192.size a ≤ S64x8192.size a
  h_S64x8192 : 0 < S64x8192.numel
  inb_S64x1_S64x1_0_0 : ∀ a, (![0, 0] : Fin 2 → Nat) a + S64x1.size a ≤ S64x1.size a
  h_S64x1 : 0 < S64x1.numel
  dot_S64x8192_S1x8192_S64x1_1_1_0_0_n_n_wf : DotDims.WF S64x8192 S1x8192 S64x1 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x8192.size a ≤ S1x8192.size a
  hwx0_0 : ∀ i : grid0.Coords, EltTy.bits .f32 = 32 ∨ (Rect.block (s := S1x8192) S1x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .f32 = 32 ∨ (Rect.block (s := S1x8192) S1x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x5.size a ≤ S8192x5.size a
  hwx0_2 : ∀ i : grid0.Coords, EltTy.bits .f32 = 32 ∨ (Rect.block (s := S8192x5) S64x5.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x8192.size a ≤ S8192x8192.size a
  hwx0_3 : ∀ i : grid0.Coords, EltTy.bits .f32 = 32 ∨ (Rect.block (s := S8192x8192) S64x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x8192.size a ≤ S8192x8192.size a
  hwx0_4 : ∀ i : grid0.Coords, EltTy.bits .f32 = 32 ∨ (Rect.block (s := S8192x8192) S64x8192.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x8192.size a ≤ S8192x8192.size a
  hwx0_5 : ∀ i : grid0.Coords, EltTy.bits .f32 = 32 ∨ (Rect.block (s := S8192x8192) S64x8192.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x8192.size a ≤ S8192x8192.size a
  hwx0_6 : ∀ i : grid0.Coords, EltTy.bits .f32 = 32 ∨ (Rect.block (s := S8192x8192) S64x8192.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x8192.size a ≤ S8192x8192.size a
  hwx0_7 : ∀ i : grid0.Coords, EltTy.bits .f32 = 32 ∨ (Rect.block (s := S8192x8192) S64x8192.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x8192.size a ≤ S8192x8192.size a
  hwx0_8 : ∀ i : grid0.Coords, EltTy.bits .f32 = 32 ∨ (Rect.block (s := S8192x8192) S64x8192.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S64x8192.size a ≤ S8192x8192.size a
  hwx0_9 : ∀ i : grid0.Coords, EltTy.bits .f32 = 32 ∨ (Rect.block (s := S8192x8192) S64x8192.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S64x8192.size a ≤ S8192x8192.size a
  hwx0_10 : ∀ i : grid0.Coords, EltTy.bits .f32 = 32 ∨ (Rect.block (s := S8192x8192) S64x8192.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S64x1.size a ≤ S8192x1.size a
  hwx0_11 : ∀ i : grid0.Coords, EltTy.bits .f32 = 32 ∨ (Rect.block (s := S8192x1) S64x1.size (cc0_transform_11 i) (hinb0_11 i)).WholeWords (EltTy.packing .f32)

variable [Facts₀]

def dot_S64x8192_S1x8192_S64x1_1_1_0_0_n_n : DotDims S64x8192 S1x8192 S64x1 where
  lhsContracting := [1]
  rhsContracting := [1]
  lhsNonContracting := [0]
  rhsNonContracting := [0]
  lhsBatch := []
  rhsBatch := []
  wf := dot_S64x8192_S1x8192_S64x1_1_1_0_0_n_n_wf

abbrev win0_0 : Pipeline.Window sig grid0 :=
  Pipeline.Window.ofSpec (Memref.whole main_v0) S1x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x5.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x8192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x8192.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64x8192.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64x8192.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S64x8192.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S64x8192.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg12) S64x8192.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg13) S64x8192.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v3) S64x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8192x1 : Shape := ⟨2, ![8192, 1]⟩
abbrev S8192x8192 : Shape := ⟨2, ![8192, 8192]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S8192x1, .f32⟩
  | .hbm, ⟨1, _⟩ => ⟨S8192x1, .f32⟩
  | .hbm, ⟨2, _⟩ => ⟨S8192x1, .f32⟩
  | .hbm, ⟨3, _⟩ => ⟨S8192x8192, .f32⟩
  | .hbm, ⟨4, _⟩ => ⟨S8192x8192, .f32⟩
  | .hbm, ⟨5, _⟩ => ⟨S8192x1, .f32⟩
  | .hbm, ⟨6, _⟩ => ⟨S8192x8192, .f32⟩
  | .hbm, ⟨7, _⟩ => ⟨S8192x8192, .f32⟩
  | .hbm, ⟨8, _⟩ => ⟨S8192x1, .f32⟩
  | .hbm, ⟨9, _⟩ => ⟨S8192x8192, .f32⟩
  | .hbm, ⟨10, _⟩ => ⟨S8192x8192, .f32⟩
  | .hbm, ⟨11, _⟩ => ⟨S8192x1, .f32⟩
  | .hbm, ⟨12, _⟩ => ⟨S8192x8192, .f32⟩
  | .hbm, ⟨13, _⟩ => ⟨S8192x8192, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x1, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x1, .f32⟩
  | .hbm, ⟨58, _⟩ => ⟨S8192x1, .f32⟩
  | .hbm, ⟨59, _⟩ => ⟨S8192x1, .f32⟩
  | .hbm, ⟨60, _⟩ => ⟨S8192x1, .f32⟩
  | _, _ => ⟨S8192x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_cst_4 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]

class Facts₀ : Prop where
  bcast_S_S8192x1 : S_.BroadcastsInDim S8192x1 (![] : Fin 0 → Fin S8192x1.rank)
  dot_S8192x8192_S8192x1_S8192x1_1_0_0_1_n_n_wf : DotDims.WF S8192x8192 S8192x1 S8192x1 [1] [0] [0] [1] [] []

variable [Facts₀]

def dot_S8192x8192_S8192x1_S8192x1_1_0_0_1_n_n : DotDims S8192x8192 S8192x1 S8192x1 where
  lhsContracting := [1]
  rhsContracting := [0]
  lhsNonContracting := [0]
  rhsNonContracting := [1]
  lhsBatch := []
  rhsBatch := []
  wf := dot_S8192x8192_S8192x1_S8192x1_1_0_0_1_n_n_wf

class Facts : Prop extends Facts₀ where

variable [Facts]
-- ==== Proof.KernelCell.lean ====
/-
  The frame of the printed kernel program, at any float instance.

  @main is three host operations followed by one pipelined region. The host operations lay the two column
  vectors x and pred (8192 x 1) out as rows (1 x 8192), and place hidden_state and the four bias columns side by
  side as the five columns of one 8192 x 5 array. None of them writes an argument array, so the region finds
  every argument as launched.

  The region runs 128 grid points. At point t the body is handed the two rows whole, rows 64 t .. 64 t + 63 of the
  8192 x 5 array and of each of the eight 8192 x 8192 weight matrices, and a 64 x 1 output block. It loads each of its
  eleven input blocks once, whole, and stores one 64 x 1 value over the whole output block; it keeps nothing
  between points. So after the body every input buffer holds what it held, and the output buffer holds that one
  stored value, a function of the eleven input blocks.
-/
import proofs.«403898_j6545530159611_3_alg».proof.Proof.Gen.Kernel.Launch
import proofs.«403898_j6545530159611_3_alg».proof.Proof.Gen.Kernel.Skeleton
import proofs.«403898_j6545530159611_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- The contents of core `c`'s buffers when the region is entered: the launch contents with the three host
    operations applied in order. -/
abbrev V (c : Dev nD) (b : Ref sig .tc) : Buf (Elt F) ((c : Thread nD τ).loc b) :=
  StableHlo.after (List.flatten [hostOps0]) (fun b => m (c, b)) b

/-- None of the three host operations allocates a buffer. -/
theorem hostOps0_fresh : (hostOps0 : List (HloOp τ sig (Elt F))).Forall fun op => op.fresh = ∅ := by
  simp only [List.Forall]; repeat' constructor

/-- @main is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-! The host operations write only the two rows and the five-column array, so each argument array is found as
launched. -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append,
      List.Forall, StableHlo.reshape_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append,
      List.Forall, StableHlo.reshape_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append,
      List.Forall, StableHlo.reshape_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append,
      List.Forall, StableHlo.reshape_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append,
      List.Forall, StableHlo.reshape_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append,
      List.Forall, StableHlo.reshape_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append,
      List.Forall, StableHlo.reshape_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append,
      List.Forall, StableHlo.reshape_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append,
      List.Forall, StableHlo.reshape_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append,
      List.Forall, StableHlo.reshape_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append,
      List.Forall, StableHlo.reshape_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append, List.nil_append,
      List.Forall, StableHlo.reshape_writes, StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append, List.nil_append,
      List.Forall, StableHlo.reshape_writes, StableHlo.nary_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append, List.nil_append,
      List.Forall, StableHlo.reshape_writes, StableHlo.nary_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append, List.nil_append,
      List.Forall, StableHlo.reshape_writes, StableHlo.nary_writes, Finset.mem_singleton]
    repeat' apply And.intro
    all_goals exact StableHlo.devRef_ne_of_ne (by decide)))

/-! ## The blocks -/

/-- Window `w`'s block at grid point `t`: the part of its array, as the region finds it, that the point is handed. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's buffer holds the window's block whenever the body is handed it: at a point that fetches it
the fetch put the block there, and at a point that does not, the block index has not moved since the last fetch
and the body left the buffer as it found it. The two rows are fetched at the first point only; the other nine
inputs at every point. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## From the region's post to the argument arrays -/

/-- Any run of @main that ends with every window's array at what the proof data says and every other unscoped
    buffer as the region found it leaves the fifteen argument arrays as launched: the eight weight matrices are
    input windows' arrays, which a pipeline only reads; the other seven arguments are staged by no window; and
    the region found all fifteen as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).2 main_arg5 (Pipeline.mem_restRefs_of main_arg5 (by decide) (by decide))).trans (V_main_arg5 m c),
      ((h c).1 5).trans (((dats 0 c).arrAt_in 5 rfl _).trans ((hA c 5).trans (V_main_arg6 m c))),
      ((h c).1 6).trans (((dats 0 c).arrAt_in 6 rfl _).trans ((hA c 6).trans (V_main_arg7 m c))),
      ((h c).2 main_arg8 (Pipeline.mem_restRefs_of main_arg8 (by decide) (by decide))).trans (V_main_arg8 m c),
      ((h c).1 7).trans (((dats 0 c).arrAt_in 7 rfl _).trans ((hA c 7).trans (V_main_arg9 m c))),
      ((h c).1 8).trans (((dats 0 c).arrAt_in 8 rfl _).trans ((hA c 8).trans (V_main_arg10 m c))),
      ((h c).2 main_arg11 (Pipeline.mem_restRefs_of main_arg11 (by decide) (by decide))).trans (V_main_arg11 m c),
      ((h c).1 9).trans (((dats 0 c).arrAt_in 9 rfl _).trans ((hA c 9).trans (V_main_arg12 m c))),
      ((h c).1 10).trans (((dats 0 c).arrAt_in 10 rfl _).trans ((hA c 10).trans (V_main_arg13 m c))),
      ((h c).2 main_arg14 (Pipeline.mem_restRefs_of main_arg14 (by decide) (by decide))).trans (V_main_arg14 m c)⟩) h

/-! ## What the body leaves in the output block -/

/-- Every load and the one store of the body address a whole block. -/
abbrev rRow : Rect S1x8192 := Rect.unit (s := S1x8192) ![0, 0] S1x8192.size inb_S1x8192_S1x8192_0_0
abbrev rVec : Rect S64x5 := Rect.unit (s := S64x5) ![0, 0] S64x5.size inb_S64x5_S64x5_0_0
abbrev rMat : Rect S64x8192 := Rect.unit (s := S64x8192) ![0, 0] S64x8192.size inb_S64x8192_S64x8192_0_0
abbrev rOut : Rect S64x1 := Rect.unit (s := S64x1) ![0, 0] S64x1.size inb_S64x1_S64x1_0_0

/-- The output block after the body, from the eleven input blocks: the row of x, the row of pred, the 64 x 5 block
    of hidden_state and biases, and the 64 x 8192 blocks of the forget, input, candidate and output gates' two
    weight matrices each. It is the body's single store, which covers the block. -/
def cellOut (xr pr : Vec F S1x8192 .f32) (hb : Vec F S64x5 .f32)
    (fx fh ix ih bx bh ox oh : Vec F S64x8192 .f32) : Vec F S64x1 .f32 :=
  View.canon [⟨rOut, k0_pay1 (k0_pay2 (View.ld xr rRow)) (k0_pay3 (View.ld pr rRow)) (k0_pay5 (View.ld hb rVec)) (k0_pay6 (View.ld hb rVec))
    (k0_pay7 (View.ld xr rRow) (View.ld pr rRow) (View.ld hb rVec) (View.ld fx rMat) (View.ld fh rMat))
    (k0_pay8 (View.ld xr rRow) (View.ld pr rRow) (View.ld hb rVec) (View.ld ix rMat) (View.ld ih rMat))
    (k0_pay9 (View.ld xr rRow) (View.ld pr rRow) (View.ld hb rVec) (View.ld bx rMat) (View.ld bh rMat))
    (View.ld ox rMat) (View.ld oh rMat)⟩]

/-- The one stored rectangle is the whole 64 x 1 block. -/
theorem cover_out (p0 : Vec F S64x1 .f32) (y : S64x1.Idx) :
    ∃ pc ∈ ([⟨rOut, p0⟩] : List (View.Piece (Elt F) S64x1 .f32)), y ∈ pc.1.set :=
  View.cover_of_tiled [⟨rOut, p0⟩] S64x1.size (by rfl) y

/-! ## The body's triple -/

set_option maxHeartbeats 1000000 in
/-- The body, run on whole buffers holding the eleven input blocks and an output buffer holding anything, ends
    with the inputs' buffers unchanged and the output buffer at `cellOut` of the inputs. -/
theorem sound_kernel (c : Dev nD) (E : Set ℕ) (i : grid0.Coords)
    (arg1 : Memref sig .tc .vmem S1x8192 .f32) (harg1 : arg1.IsWhole) (arg2 : Memref sig .tc .vmem S1x8192 .f32) (harg2 : arg2.IsWhole)
    (arg3 : Memref sig .tc .vmem S64x5 .f32) (harg3 : arg3.IsWhole)
    (arg4 : Memref sig .tc .vmem S64x8192 .f32) (harg4 : arg4.IsWhole) (arg5 : Memref sig .tc .vmem S64x8192 .f32) (harg5 : arg5.IsWhole)
    (arg6 : Memref sig .tc .vmem S64x8192 .f32) (harg6 : arg6.IsWhole) (arg7 : Memref sig .tc .vmem S64x8192 .f32) (harg7 : arg7.IsWhole)
    (arg8 : Memref sig .tc .vmem S64x8192 .f32) (harg8 : arg8.IsWhole) (arg9 : Memref sig .tc .vmem S64x8192 .f32) (harg9 : arg9.IsWhole)
    (arg10 : Memref sig .tc .vmem S64x8192 .f32) (harg10 : arg10.IsWhole) (arg11 : Memref sig .tc .vmem S64x8192 .f32) (harg11 : arg11.IsWhole)
    (arg12 : Memref sig .tc .vmem S64x1 .f32) (harg12 : arg12.IsWhole)
    (xr pr : Vec F S1x8192 .f32) (hb : Vec F S64x5 .f32) (fx fh ix ih bx bh ox oh : Vec F S64x8192 .f32) (K : PUnit → sProp 𝕄) :
    iprop(owns (c : Thread nD τ) arg1 fullShare xr ∗ owns (c : Thread nD τ) arg2 fullShare pr ∗ owns (c : Thread nD τ) arg3 fullShare hb
        ∗ owns (c : Thread nD τ) arg4 fullShare fx ∗ owns (c : Thread nD τ) arg5 fullShare fh
        ∗ owns (c : Thread nD τ) arg6 fullShare ix ∗ owns (c : Thread nD τ) arg7 fullShare ih
        ∗ owns (c : Thread nD τ) arg8 fullShare bx ∗ owns (c : Thread nD τ) arg9 fullShare bh
        ∗ owns (c : Thread nD τ) arg10 fullShare ox ∗ owns (c : Thread nD τ) arg11 fullShare oh
        ∗ (∃ d, owns (c : Thread nD τ) arg12 fullShare d)
        ∗ (iprop(owns (c : Thread nD τ) arg1 fullShare xr ∗ owns (c : Thread nD τ) arg2 fullShare pr ∗ owns (c : Thread nD τ) arg3 fullShare hb
            ∗ owns (c : Thread nD τ) arg4 fullShare fx ∗ owns (c : Thread nD τ) arg5 fullShare fh
            ∗ owns (c : Thread nD τ) arg6 fullShare ix ∗ owns (c : Thread nD τ) arg7 fullShare ih
            ∗ owns (c : Thread nD τ) arg8 fullShare bx ∗ owns (c : Thread nD τ) arg9 fullShare bh
            ∗ owns (c : Thread nD τ) arg10 fullShare ox ∗ owns (c : Thread nD τ) arg11 fullShare oh
            ∗ owns (c : Thread nD τ) arg12 fullShare (cellOut xr pr hb fx fh ix ih bx bh ox oh)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8 arg9 harg9 arg10 harg10 arg11 harg11 arg12 harg12) K := by
  simp only [cc0__lstm_kernel_eq_skeleton]; unfold cc0__lstm_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf1 hf2 hf3 hf4 hf5 hf6 hf7 hf8 hf9 hf10 hf11
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  try dsimp only
  exact View.read_writes_eq_canon _ _ _ (cover_out _)

/-! ## The proof data of the pipeline -/

/-- On core `c`: each window's array as the region finds it; after the body at point `t` each input buffer at its
    block and the output buffer at `cellOut` of the eleven input blocks; nothing else is held or owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => cellOut (iblk m c 0 t) (iblk m c 1 t) (iblk m c 2 t) (iblk m c 3 t) (iblk m c 4 t) (iblk m c 5 t)
        (iblk m c 6 t) (iblk m c 7 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t =
    cellOut (iblk m c 0 t) (iblk m c 1 t) (iblk m c 2 t) (iblk m c 3 t) (iblk m c 4 t) (iblk m c 5 t)
      (iblk m c 6 t) (iblk m c 7 t) (iblk m c 8 t) (iblk m c 9 t) (iblk m c 10 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation -/

/-- What the body is handed at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- At any point the input buffers hold their blocks, so the body's triple applies; what the pipeline holds
    besides passes through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ _ _ _ _ _ _ _ _ _ _ _ _ _ _ _ _ _ _ _ _ _ _ _ _ _
    (iblk m c 0 t) (iblk m c 1 t) (iblk m c 2 t) (iblk m c 3 t) (iblk m c 4 t) (iblk m c 5 t)
    (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main from any memory with zero counters terminates without a fault, with every
    window's array at what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main terminates without a fault and leaves its fifteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Cell

end
-- ==== Proof.KernelIdealCell.lean ====
/-
  The frame of the printed kernel program, at any float instance.

  @main is three host operations followed by one pipelined region. The host operations lay the two column
  vectors x and pred (8192 x 1) out as rows (1 x 8192), and place hidden_state and the four bias columns side by
  side as the five columns of one 8192 x 5 array. None of them writes an argument array, so the region finds
  every argument as launched.

  The region runs 128 grid points. At point t the body is handed the two rows whole, rows 64 t .. 64 t + 63 of the
  8192 x 5 array and of each of the eight 8192 x 8192 weight matrices, and a 64 x 1 output block. It loads each of its
  eleven input blocks once, whole, and stores one 64 x 1 value over the whole output block; it keeps nothing
  between points. So after the body every input buffer holds what it held, and the output buffer holds that one
  stored value, a function of the eleven input blocks.
-/
import proofs.«403898_j6545530159611_3_alg».proof.Proof.Gen.KernelIdeal.Launch
import proofs.«403898_j6545530159611_3_alg».proof.Proof.Gen.KernelIdeal.Skeleton
import proofs.«403898_j6545530159611_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- The contents of core `c`'s buffers when the region is entered: the launch contents with the three host
    operations applied in order. -/
abbrev V (c : Dev nD) (b : Ref sig .tc) : Buf (Elt F) ((c : Thread nD τ).loc b) :=
  StableHlo.after (List.flatten [hostOps0]) (fun b => m (c, b)) b

/-- None of the three host operations allocates a buffer. -/
theorem hostOps0_fresh : (hostOps0 : List (HloOp τ sig (Elt F))).Forall fun op => op.fresh = ∅ := by
  simp only [List.Forall]; repeat' constructor

/-- @main is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-! The host operations write only the two rows and the five-column array, so each argument array is found as
launched. -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append,
      List.Forall, StableHlo.reshape_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append,
      List.Forall, StableHlo.reshape_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append,
      List.Forall, StableHlo.reshape_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append,
      List.Forall, StableHlo.reshape_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append,
      List.Forall, StableHlo.reshape_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append,
      List.Forall, StableHlo.reshape_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append,
      List.Forall, StableHlo.reshape_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append,
      List.Forall, StableHlo.reshape_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append,
      List.Forall, StableHlo.reshape_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append,
      List.Forall, StableHlo.reshape_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append,
      List.Forall, StableHlo.reshape_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append, List.nil_append,
      List.Forall, StableHlo.reshape_writes, StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append, List.nil_append,
      List.Forall, StableHlo.reshape_writes, StableHlo.nary_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append, List.nil_append,
      List.Forall, StableHlo.reshape_writes, StableHlo.nary_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append, List.nil_append,
      List.Forall, StableHlo.reshape_writes, StableHlo.nary_writes, Finset.mem_singleton]
    repeat' apply And.intro
    all_goals exact StableHlo.devRef_ne_of_ne (by decide)))

/-! ## The blocks -/

/-- Window `w`'s block at grid point `t`: the part of its array, as the region finds it, that the point is handed. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's buffer holds the window's block whenever the body is handed it: at a point that fetches it
the fetch put the block there, and at a point that does not, the block index has not moved since the last fetch
and the body left the buffer as it found it. The two rows are fetched at the first point only; the other nine
inputs at every point. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## From the region's post to the argument arrays -/

/-- Any run of @main that ends with every window's array at what the proof data says and every other unscoped
    buffer as the region found it leaves the fifteen argument arrays as launched: the eight weight matrices are
    input windows' arrays, which a pipeline only reads; the other seven arguments are staged by no window; and
    the region found all fifteen as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).2 main_arg5 (Pipeline.mem_restRefs_of main_arg5 (by decide) (by decide))).trans (V_main_arg5 m c),
      ((h c).1 5).trans (((dats 0 c).arrAt_in 5 rfl _).trans ((hA c 5).trans (V_main_arg6 m c))),
      ((h c).1 6).trans (((dats 0 c).arrAt_in 6 rfl _).trans ((hA c 6).trans (V_main_arg7 m c))),
      ((h c).2 main_arg8 (Pipeline.mem_restRefs_of main_arg8 (by decide) (by decide))).trans (V_main_arg8 m c),
      ((h c).1 7).trans (((dats 0 c).arrAt_in 7 rfl _).trans ((hA c 7).trans (V_main_arg9 m c))),
      ((h c).1 8).trans (((dats 0 c).arrAt_in 8 rfl _).trans ((hA c 8).trans (V_main_arg10 m c))),
      ((h c).2 main_arg11 (Pipeline.mem_restRefs_of main_arg11 (by decide) (by decide))).trans (V_main_arg11 m c),
      ((h c).1 9).trans (((dats 0 c).arrAt_in 9 rfl _).trans ((hA c 9).trans (V_main_arg12 m c))),
      ((h c).1 10).trans (((dats 0 c).arrAt_in 10 rfl _).trans ((hA c 10).trans (V_main_arg13 m c))),
      ((h c).2 main_arg14 (Pipeline.mem_restRefs_of main_arg14 (by decide) (by decide))).trans (V_main_arg14 m c)⟩) h

/-! ## What the body leaves in the output block -/

/-- Every load and the one store of the body address a whole block. -/
abbrev rRow : Rect S1x8192 := Rect.unit (s := S1x8192) ![0, 0] S1x8192.size inb_S1x8192_S1x8192_0_0
abbrev rVec : Rect S64x5 := Rect.unit (s := S64x5) ![0, 0] S64x5.size inb_S64x5_S64x5_0_0
abbrev rMat : Rect S64x8192 := Rect.unit (s := S64x8192) ![0, 0] S64x8192.size inb_S64x8192_S64x8192_0_0
abbrev rOut : Rect S64x1 := Rect.unit (s := S64x1) ![0, 0] S64x1.size inb_S64x1_S64x1_0_0

/-- The output block after the body, from the eleven input blocks: the row of x, the row of pred, the 64 x 5 block
    of hidden_state and biases, and the 64 x 8192 blocks of the forget, input, candidate and output gates' two
    weight matrices each. It is the body's single store, which covers the block. -/
def cellOut (xr pr : Vec F S1x8192 .f32) (hb : Vec F S64x5 .f32)
    (fx fh ix ih bx bh ox oh : Vec F S64x8192 .f32) : Vec F S64x1 .f32 :=
  View.canon [⟨rOut, k0_pay1 (k0_pay2 (View.ld xr rRow)) (k0_pay3 (View.ld pr rRow)) (k0_pay5 (View.ld hb rVec)) (k0_pay6 (View.ld hb rVec))
    (k0_pay7 (View.ld xr rRow) (View.ld pr rRow) (View.ld hb rVec) (View.ld fx rMat) (View.ld fh rMat))
    (k0_pay8 (View.ld xr rRow) (View.ld pr rRow) (View.ld hb rVec) (View.ld ix rMat) (View.ld ih rMat))
    (k0_pay9 (View.ld xr rRow) (View.ld pr rRow) (View.ld hb rVec) (View.ld bx rMat) (View.ld bh rMat))
    (View.ld ox rMat) (View.ld oh rMat)⟩]

/-- The one stored rectangle is the whole 64 x 1 block. -/
theorem cover_out (p0 : Vec F S64x1 .f32) (y : S64x1.Idx) :
    ∃ pc ∈ ([⟨rOut, p0⟩] : List (View.Piece (Elt F) S64x1 .f32)), y ∈ pc.1.set :=
  View.cover_of_tiled [⟨rOut, p0⟩] S64x1.size (by rfl) y

/-! ## The body's triple -/

set_option maxHeartbeats 1000000 in
/-- The body, run on whole buffers holding the eleven input blocks and an output buffer holding anything, ends
    with the inputs' buffers unchanged and the output buffer at `cellOut` of the inputs. -/
theorem sound_kernel (c : Dev nD) (E : Set ℕ) (i : grid0.Coords)
    (arg1 : Memref sig .tc .vmem S1x8192 .f32) (harg1 : arg1.IsWhole) (arg2 : Memref sig .tc .vmem S1x8192 .f32) (harg2 : arg2.IsWhole)
    (arg3 : Memref sig .tc .vmem S64x5 .f32) (harg3 : arg3.IsWhole)
    (arg4 : Memref sig .tc .vmem S64x8192 .f32) (harg4 : arg4.IsWhole) (arg5 : Memref sig .tc .vmem S64x8192 .f32) (harg5 : arg5.IsWhole)
    (arg6 : Memref sig .tc .vmem S64x8192 .f32) (harg6 : arg6.IsWhole) (arg7 : Memref sig .tc .vmem S64x8192 .f32) (harg7 : arg7.IsWhole)
    (arg8 : Memref sig .tc .vmem S64x8192 .f32) (harg8 : arg8.IsWhole) (arg9 : Memref sig .tc .vmem S64x8192 .f32) (harg9 : arg9.IsWhole)
    (arg10 : Memref sig .tc .vmem S64x8192 .f32) (harg10 : arg10.IsWhole) (arg11 : Memref sig .tc .vmem S64x8192 .f32) (harg11 : arg11.IsWhole)
    (arg12 : Memref sig .tc .vmem S64x1 .f32) (harg12 : arg12.IsWhole)
    (xr pr : Vec F S1x8192 .f32) (hb : Vec F S64x5 .f32) (fx fh ix ih bx bh ox oh : Vec F S64x8192 .f32) (K : PUnit → sProp 𝕄) :
    iprop(owns (c : Thread nD τ) arg1 fullShare xr ∗ owns (c : Thread nD τ) arg2 fullShare pr ∗ owns (c : Thread nD τ) arg3 fullShare hb
        ∗ owns (c : Thread nD τ) arg4 fullShare fx ∗ owns (c : Thread nD τ) arg5 fullShare fh
        ∗ owns (c : Thread nD τ) arg6 fullShare ix ∗ owns (c : Thread nD τ) arg7 fullShare ih
        ∗ owns (c : Thread nD τ) arg8 fullShare bx ∗ owns (c : Thread nD τ) arg9 fullShare bh
        ∗ owns (c : Thread nD τ) arg10 fullShare ox ∗ owns (c : Thread nD τ) arg11 fullShare oh
        ∗ (∃ d, owns (c : Thread nD τ) arg12 fullShare d)
        ∗ (iprop(owns (c : Thread nD τ) arg1 fullShare xr ∗ owns (c : Thread nD τ) arg2 fullShare pr ∗ owns (c : Thread nD τ) arg3 fullShare hb
            ∗ owns (c : Thread nD τ) arg4 fullShare fx ∗ owns (c : Thread nD τ) arg5 fullShare fh
            ∗ owns (c : Thread nD τ) arg6 fullShare ix ∗ owns (c : Thread nD τ) arg7 fullShare ih
            ∗ owns (c : Thread nD τ) arg8 fullShare bx ∗ owns (c : Thread nD τ) arg9 fullShare bh
            ∗ owns (c : Thread nD τ) arg10 fullShare ox ∗ owns (c : Thread nD τ) arg11 fullShare oh
            ∗ owns (c : Thread nD τ) arg12 fullShare (cellOut xr pr hb fx fh ix ih bx bh ox oh)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8 arg9 harg9 arg10 harg10 arg11 harg11 arg12 harg12) K := by
  simp only [cc0__lstm_kernel_eq_skeleton]; unfold cc0__lstm_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf1 hf2 hf3 hf4 hf5 hf6 hf7 hf8 hf9 hf10 hf11
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  try dsimp only
  exact View.read_writes_eq_canon _ _ _ (cover_out _)

/-! ## The proof data of the pipeline -/

/-- On core `c`: each window's array as the region finds it; after the body at point `t` each input buffer at its
    block and the output buffer at `cellOut` of the eleven input blocks; nothing else is held or owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => cellOut (iblk m c 0 t) (iblk m c 1 t) (iblk m c 2 t) (iblk m c 3 t) (iblk m c 4 t) (iblk m c 5 t)
        (iblk m c 6 t) (iblk m c 7 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t =
    cellOut (iblk m c 0 t) (iblk m c 1 t) (iblk m c 2 t) (iblk m c 3 t) (iblk m c 4 t) (iblk m c 5 t)
      (iblk m c 6 t) (iblk m c 7 t) (iblk m c 8 t) (iblk m c 9 t) (iblk m c 10 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation -/

/-- What the body is handed at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- At any point the input buffers hold their blocks, so the body's triple applies; what the pipeline holds
    besides passes through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ _ _ _ _ _ _ _ _ _ _ _ _ _ _ _ _ _ _ _ _ _ _ _ _ _
    (iblk m c 0 t) (iblk m c 1 t) (iblk m c 2 t) (iblk m c 3 t) (iblk m c 4 t) (iblk m c 5 t)
    (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main from any memory with zero counters terminates without a fault, with every
    window's array at what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main terminates without a fault and leaves its fifteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Cell

end
-- ==== Proof.LibPlainDot.lean ====
/-
  Matrix products at the ideal values, read as plain sums over one contraction coordinate.

  A product whose dimension numbers are the library's `DotDims.plain M K N` (rows × contraction times contraction × columns, no batch
  axis) is, at the result index (r, c), the sum over k : Fin K of lhs (r, k) · rhs (k, c); one whose numbers are
  `DotDims.transposedRhs M K N` (the right operand contracted on its LAST axis) is the sum over k of lhs (r, k) · rhs (c, k).
  Stated for a kernel's `tpu.matmul` into the zero accumulator and for the host's `dot_general`, at every M, K, N: a printed
  record with these six lists is one of the two by `rfl` (the well-formedness field is a proposition).
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-! ## The operand indices of a plain product, axis by axis -/

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
theorem plain_lhs_1 (i : (⟨2, ![M, N]⟩ : Shape).Idx) (q : (DotDims.plain M K N).contr.Idx) :
    ((DotDims.plain M K N).lhsIdx i q 1).val = (q ⟨0, Nat.zero_lt_one⟩).val :=
  (DotDims.plain M K N).lhsIdx_val_of_single rfl i q
theorem plain_rhs_0 (i : (⟨2, ![M, N]⟩ : Shape).Idx) (q : (DotDims.plain M K N).contr.Idx) :
    ((DotDims.plain M K N).rhsIdx i q 0).val = (q ⟨0, Nat.zero_lt_one⟩).val :=
  (DotDims.plain M K N).rhsIdx_val_of_single rfl i q
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction shape of a plain product, re-indexed by the one contraction coordinate. -/
theorem plain_sum (lhs : (⟨2, ![M, K]⟩ : Shape).Idx → EReal) (rhs : (⟨2, ![K, N]⟩ : Shape).Idx → EReal)
    (i : (⟨2, ![M, N]⟩ : Shape).Idx) :
    (∑ q : (DotDims.plain M K N).contr.Idx, lhs ((DotDims.plain M K N).lhsIdx i q) * rhs ((DotDims.plain M K N).rhsIdx i q))
      = ∑ k : Fin K, lhs (ix2 (i 0) k) * rhs (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 M K N _ _
      | ⟨1, _⟩ => exact (plain_lhs_1 M K N _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 M K N _ _).trans hk
      | ⟨1, _⟩ => exact plain_rhs_1 M K N _ _)
  exact congrArg₂ (fun a b : EReal => a * b) (congrArg lhs el) (congrArg rhs er)

/-- A kernel's `tpu.matmul` with plain dimension numbers into the zero accumulator, at an index. -/
theorem matmul_plain_zero_apply {φ₁ φ₂ : FTy} (prec : Option ContractPrecision)
    (lhs : FVec Ideal ⟨2, ![M, K]⟩ φ₁) (rhs : FVec Ideal ⟨2, ![K, N]⟩ φ₂) (i : (⟨2, ![M, N]⟩ : Shape).Idx) :
    FloatOps.matmul (DotDims.plain M K N) prec lhs rhs (constant ⟨2, ![M, N]⟩ .f32 0x00000000#32) i
      = ∑ k : Fin K, lhs (ix2 (i 0) k) * rhs (ix2 k (i 1)) := by
  rw [Ideal.matmul_constant_zero_apply]
  exact plain_sum M K N lhs rhs i

/-- The host's `dot_general` with plain dimension numbers, at an index. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (i : (⟨2, ![M, N]⟩ : Shape).Idx) :
    FloatOps.dotGeneral (DotDims.plain M K N) prec sched lhs rhs i = ∑ k : Fin K, lhs (ix2 (i 0) k) * rhs (ix2 k (i 1)) := by
  rw [Ideal.dotGeneral_apply]
  exact plain_sum M K N lhs rhs i

/-- The two at explicit coordinates (r, c): the form a proof rewrites with, free of the index's dependent coordinate types. -/
theorem matmul_plain_zero_ix2 {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, (lhs (ix2 r k) : EReal) * (rhs (ix2 k c) : EReal) :=
  matmul_plain_zero_apply M K N prec lhs rhs (ix2 r c)
theorem dotGeneral_plain_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, (lhs (ix2 r k) : EReal) * (rhs (ix2 k c) : EReal) :=
  dotGeneral_plain_apply M K N prec sched lhs rhs (ix2 r c)

/-! ## The right operand contracted on its last axis -/

theorem transposedRhs_lhs_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl
theorem transposedRhs_lhs_1 (i : (⟨2, ![M, N]⟩ : Shape).Idx) (q : (DotDims.transposedRhs M K N).contr.Idx) :
    ((DotDims.transposedRhs M K N).lhsIdx i q 1).val = (q ⟨0, Nat.zero_lt_one⟩).val :=
  (DotDims.transposedRhs M K N).lhsIdx_val_of_single rfl i q
theorem transposedRhs_rhs_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl
theorem transposedRhs_rhs_1 (i : (⟨2, ![M, N]⟩ : Shape).Idx) (q : (DotDims.transposedRhs M K N).contr.Idx) :
    ((DotDims.transposedRhs M K N).rhsIdx i q 1).val = (q ⟨0, Nat.zero_lt_one⟩).val :=
  (DotDims.transposedRhs M K N).rhsIdx_val_of_single rfl i q

/-- The host's `dot_general` contracting both operands' last axes, at an index. -/
theorem dotGeneral_transposedRhs_apply {φ₁ φ₂ : FTy} (prec : Option ContractPrecision) (sched : HostSchedule)
    (lhs : FVec Ideal ⟨2, ![M, K]⟩ φ₁) (rhs : FVec Ideal ⟨2, ![N, K]⟩ φ₂) (i : (⟨2, ![M, N]⟩ : Shape).Idx) :
    FloatOps.dotGeneral (DotDims.transposedRhs M K N) prec sched lhs rhs i
      = ∑ k : Fin K, lhs (ix2 (i 0) k) * rhs (ix2 (i 1) k) := by
  rw [Ideal.dotGeneral_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx i ((contrEquiv1 (DotDims.transposedRhs M K N) K rfl rfl).symm k) = ix2 (i 0) k :=
    funext fun a => Fin.ext (by
      match a with
      | ⟨0, _⟩ => exact transposedRhs_lhs_0 M K N _ _
      | ⟨1, _⟩ => exact (transposedRhs_lhs_1 M K N _ _).trans hk)
  have er : (DotDims.transposedRhs M K N).rhsIdx i ((contrEquiv1 (DotDims.transposedRhs M K N) K rfl rfl).symm k) = ix2 (i 1) k :=
    funext fun a => Fin.ext (by
      match a with
      | ⟨0, _⟩ => exact transposedRhs_rhs_0 M K N _ _
      | ⟨1, _⟩ => exact (transposedRhs_rhs_1 M K N _ _).trans hk)
  exact congrArg₂ (fun a b : EReal => a * b) (congrArg lhs el) (congrArg rhs er)

theorem dotGeneral_transposedRhs_ix2 {φ₁ φ₂ : FTy} (prec : Option ContractPrecision) (sched : HostSchedule)
    (lhs : FVec Ideal ⟨2, ![M, K]⟩ φ₁) (rhs : FVec Ideal ⟨2, ![N, K]⟩ φ₂) (r : Fin M) (c : Fin N) :
    FloatOps.dotGeneral (DotDims.transposedRhs M K N) prec sched lhs rhs (ix2 r c)
      = ∑ k : Fin K, (lhs (ix2 r k) : EReal) * (rhs (ix2 c k) : EReal) :=
  dotGeneral_transposedRhs_apply M K N prec sched lhs rhs (ix2 r c)

end Cert.Lib.PlainDot

end
-- ==== Proof.LibMatmulTransposedRhs.lean ====
/-
  A kernel's matrix product whose right operand is contracted on its LAST axis, read as a plain sum at the ideal values.

  With dimension numbers `DotDims.transposedRhs M K N` the left operand is M x K, the right operand N x K, and the result M x N:
  at the result index (r, c) the product into the zero accumulator is the sum over k : Fin K of lhs (r, k) * rhs (c, k). This is
  the shape of a matrix times a vector kept as a row: N = 1, the row 1 x K, the result a column M x 1 whose entry r is the dot
  product of row r of the matrix with the row vector. Stated at every M, K, N; a printed record with the lists
  [1] [1] [0] [0] [] [] is `DotDims.transposedRhs` by `rfl`.
-/
import proofs.«403898_j6545530159611_3_alg».proof.Proof.LibPlainDot

noncomputable section

namespace Cert.Lib.MatmulTransposedRhs

open Idealize.ShloMosaic Idealize.ShloMosaic.ValueIdx
open Cert.Lib.PlainDot

variable (M K N : Nat)

/-- The sum over the contraction shape, re-indexed by the one contraction coordinate: both operands are read at k on their
    last axis, the left at row `i 0`, the right at row `i 1`. -/
theorem transposedRhs_sum (lhs : (⟨2, ![M, K]⟩ : Shape).Idx → EReal) (rhs : (⟨2, ![N, K]⟩ : Shape).Idx → EReal)
    (i : (⟨2, ![M, N]⟩ : Shape).Idx) :
    (∑ q : (DotDims.transposedRhs M K N).contr.Idx,
        lhs ((DotDims.transposedRhs M K N).lhsIdx i q) * rhs ((DotDims.transposedRhs M K N).rhsIdx i q))
      = ∑ k : Fin K, lhs (ix2 (i 0) k) * rhs (ix2 (i 1) k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx i ((contrEquiv1 (DotDims.transposedRhs M K N) K rfl rfl).symm k) = ix2 (i 0) k :=
    funext fun a => Fin.ext (by
      match a with
      | ⟨0, _⟩ => exact transposedRhs_lhs_0 M K N _ _
      | ⟨1, _⟩ => exact (transposedRhs_lhs_1 M K N _ _).trans hk)
  have er : (DotDims.transposedRhs M K N).rhsIdx i ((contrEquiv1 (DotDims.transposedRhs M K N) K rfl rfl).symm k) = ix2 (i 1) k :=
    funext fun a => Fin.ext (by
      match a with
      | ⟨0, _⟩ => exact transposedRhs_rhs_0 M K N _ _
      | ⟨1, _⟩ => exact (transposedRhs_rhs_1 M K N _ _).trans hk)
  exact congrArg₂ (fun a b : EReal => a * b) (congrArg lhs el) (congrArg rhs er)

/-- A kernel's `tpu.matmul` with the right operand contracted on its last axis, into the zero accumulator, at an index. -/
theorem matmul_transposedRhs_zero_apply {φ₁ φ₂ : FTy} (prec : Option ContractPrecision)
    (lhs : FVec Ideal ⟨2, ![M, K]⟩ φ₁) (rhs : FVec Ideal ⟨2, ![N, K]⟩ φ₂) (i : (⟨2, ![M, N]⟩ : Shape).Idx) :
    FloatOps.matmul (DotDims.transposedRhs M K N) prec lhs rhs (constant ⟨2, ![M, N]⟩ .f32 0x00000000#32) i
      = ∑ k : Fin K, lhs (ix2 (i 0) k) * rhs (ix2 (i 1) k) := by
  rw [Ideal.matmul_constant_zero_apply]
  exact transposedRhs_sum M K N lhs rhs i

/-- The same at explicit coordinates (r, c): the form a proof rewrites with. -/
theorem matmul_transposedRhs_zero_ix2 {φ₁ φ₂ : FTy} (prec : Option ContractPrecision)
    (lhs : FVec Ideal ⟨2, ![M, K]⟩ φ₁) (rhs : FVec Ideal ⟨2, ![N, K]⟩ φ₂) (r : Fin M) (c : Fin N) :
    FloatOps.matmul (DotDims.transposedRhs M K N) prec lhs rhs (constant ⟨2, ![M, N]⟩ .f32 0x00000000#32) (ix2 r c)
      = ∑ k : Fin K, (lhs (ix2 r k) : EReal) * (rhs (ix2 c k) : EReal) :=
  matmul_transposedRhs_zero_apply M K N prec lhs rhs (ix2 r c)

end Cert.Lib.MatmulTransposedRhs

end
-- ==== Proof.KernelIdealBlock.lean ====
/-
  The body's output block as a function of its eleven input blocks, read at a row, on the extended reals.

  At a grid point the body holds the row of x and the row of pred (1 x 8192 each), a 64 x 5 block whose columns are
  hidden_state and the forget, input, candidate and output biases, and for each gate a 64 x 8192 block of each of its two
  weight matrices. A gate's pre-activation at row r of the block is the dot product of row r of its first matrix block
  with the row of x, plus the dot product of row r of its second matrix block with the row of pred, plus the gate's bias
  column at row r: each matrix-times-row product contracts the last axis of both operands into a zero accumulator. The
  stored value at row r is tanh (hidden r * s (forget) + tanh (input) * s (candidate)) * s (output), s the logistic
  function.
-/
import proofs.«403898_j6545530159611_3_alg».proof.Proof.KernelIdealCell
import proofs.«403898_j6545530159611_3_alg».proof.Proof.LibMatmulTransposedRhs
import Idealize.ShloMosaic.Lib.Pipeline.Value
import Idealize.ShloMosaic.Lib.ValueIdx

noncomputable section

namespace Cert.KernelIdeal.CellBlock

open Cert.KernelIdeal Cert.KernelIdeal.Gen Cert.KernelIdeal.Cell
open Idealize.ShloMosaic Idealize.ShloMosaic.ValueIdx
open Cert.Lib.MatmulTransposedRhs

/-- The whole-block rectangles start at the origin. -/
theorem origin2 : (![0, 0] : Fin 2 → Nat) = fun _ => 0 := funext fun a => by fin_cases a <;> rfl

/-- The printed record of the body's matrix products contracts the last axis of both operands. -/
theorem dot_eq : dot_S64x8192_S1x8192_S64x1_1_1_0_0_n_n = DotDims.transposedRhs 64 8192 1 := rfl

/-- A row block passes through its shape cast unchanged. -/
theorem row_x (v : Vec Ideal S1x8192 .f32) : k0_pay2 (F := Ideal) v = v := by
  unfold k0_pay2; exact shapeCast_self _ _
theorem row_pred (v : Vec Ideal S1x8192 .f32) : k0_pay3 (F := Ideal) v = v := by
  unfold k0_pay3; exact shapeCast_self _ _
theorem block5 (v : Vec Ideal S64x5 .f32) : k0_pay4 (F := Ideal) v = v := by
  unfold k0_pay4; exact shapeCast_self _ _

/-- Column q of the 64 x 5 block, as a 64 x 1 slice, at row r. -/
theorem col0_at (hb : Vec Ideal S64x5 .f32) (r : Fin 64) :
    extractStridedSlice S64x1 ![0, 0] hb slices_S64x5_o0_0_S64x1 (ix2 r 0) = hb (ix2 r 0) :=
  extractStridedSlice_apply _ _ _ _ (ix2 r 0) (fun a => by match a with | ⟨0, _⟩ => simp | ⟨1, _⟩ => simp)
theorem col1_at (hb : Vec Ideal S64x5 .f32) (r : Fin 64) :
    extractStridedSlice S64x1 ![0, 1] hb slices_S64x5_o0_1_S64x1 (ix2 r 0) = hb (ix2 r 1) :=
  extractStridedSlice_apply _ _ _ _ (ix2 r 1) (fun a => by match a with | ⟨0, _⟩ => simp | ⟨1, _⟩ => simp)
theorem col2_at (hb : Vec Ideal S64x5 .f32) (r : Fin 64) :
    extractStridedSlice S64x1 ![0, 2] hb slices_S64x5_o0_2_S64x1 (ix2 r 0) = hb (ix2 r 2) :=
  extractStridedSlice_apply _ _ _ _ (ix2 r 2) (fun a => by match a with | ⟨0, _⟩ => simp | ⟨1, _⟩ => simp)
theorem col3_at (hb : Vec Ideal S64x5 .f32) (r : Fin 64) :
    extractStridedSlice S64x1 ![0, 3] hb slices_S64x5_o0_3_S64x1 (ix2 r 0) = hb (ix2 r 3) :=
  extractStridedSlice_apply _ _ _ _ (ix2 r 3) (fun a => by match a with | ⟨0, _⟩ => simp | ⟨1, _⟩ => simp)
theorem col4_at (hb : Vec Ideal S64x5 .f32) (r : Fin 64) :
    extractStridedSlice S64x1 ![0, 4] hb slices_S64x5_o0_4_S64x1 (ix2 r 0) = hb (ix2 r 4) :=
  extractStridedSlice_apply _ _ _ _ (ix2 r 4) (fun a => by match a with | ⟨0, _⟩ => simp | ⟨1, _⟩ => simp)

/-- One matrix block times a row, into the zero accumulator, at row r: the dot product of the block's row r with the row. -/
theorem matrow_at (W : Vec Ideal S64x8192 .f32) (v : Vec Ideal S1x8192 .f32) (r : Fin 64) :
    matmul (F := Ideal) (φ₁ := .f32) (φ₂ := .f32) dot_S64x8192_S1x8192_S64x1_1_1_0_0_n_n none W v (constant S64x1 .f32 0x00000000#32) (ix2 r 0)
      = ∑ k : Fin 8192, W (ix2 r k) * v (ix2 0 k) := by
  rw [dot_eq]
  exact matmul_transposedRhs_zero_ix2 64 8192 1 none W v r 0

/-- A gate's pre-activation at row r of the block. -/
def blockPre (W U : Vec Ideal S64x8192 .f32) (xr pr : Vec Ideal S1x8192 .f32) (hb : Vec Ideal S64x5 .f32) (q : Fin 5) (r : Fin 64) : EReal :=
  (∑ k : Fin 8192, W (ix2 r k) * xr (ix2 0 k)) + (∑ k : Fin 8192, U (ix2 r k) * pr (ix2 0 k)) + hb (ix2 r q)

theorem forget_at (xr pr : Vec Ideal S1x8192 .f32) (hb : Vec Ideal S64x5 .f32) (W U : Vec Ideal S64x8192 .f32) (r : Fin 64) :
    k0_pay7 (F := Ideal) xr pr hb W U (ix2 r 0) = blockPre W U xr pr hb 1 r := by
  unfold k0_pay7
  rw [row_x, row_pred, block5]
  show matmul (F := Ideal) (φ₁ := .f32) (φ₂ := .f32) dot_S64x8192_S1x8192_S64x1_1_1_0_0_n_n none W xr (constant S64x1 .f32 0x00000000#32) (ix2 r 0)
      + matmul (F := Ideal) (φ₁ := .f32) (φ₂ := .f32) dot_S64x8192_S1x8192_S64x1_1_1_0_0_n_n none U pr (constant S64x1 .f32 0x00000000#32) (ix2 r 0)
      + extractStridedSlice S64x1 ![0, 1] hb slices_S64x5_o0_1_S64x1 (ix2 r 0) = _
  rw [matrow_at, matrow_at, col1_at]
  rfl
theorem input_at (xr pr : Vec Ideal S1x8192 .f32) (hb : Vec Ideal S64x5 .f32) (W U : Vec Ideal S64x8192 .f32) (r : Fin 64) :
    k0_pay8 (F := Ideal) xr pr hb W U (ix2 r 0) = blockPre W U xr pr hb 2 r := by
  unfold k0_pay8
  rw [row_x, row_pred, block5]
  show matmul (F := Ideal) (φ₁ := .f32) (φ₂ := .f32) dot_S64x8192_S1x8192_S64x1_1_1_0_0_n_n none W xr (constant S64x1 .f32 0x00000000#32) (ix2 r 0)
      + matmul (F := Ideal) (φ₁ := .f32) (φ₂ := .f32) dot_S64x8192_S1x8192_S64x1_1_1_0_0_n_n none U pr (constant S64x1 .f32 0x00000000#32) (ix2 r 0)
      + extractStridedSlice S64x1 ![0, 2] hb slices_S64x5_o0_2_S64x1 (ix2 r 0) = _
  rw [matrow_at, matrow_at, col2_at]
  rfl
theorem candidate_at (xr pr : Vec Ideal S1x8192 .f32) (hb : Vec Ideal S64x5 .f32) (W U : Vec Ideal S64x8192 .f32) (r : Fin 64) :
    k0_pay9 (F := Ideal) xr pr hb W U (ix2 r 0) = blockPre W U xr pr hb 3 r := by
  unfold k0_pay9
  rw [row_x, row_pred, block5]
  show matmul (F := Ideal) (φ₁ := .f32) (φ₂ := .f32) dot_S64x8192_S1x8192_S64x1_1_1_0_0_n_n none W xr (constant S64x1 .f32 0x00000000#32) (ix2 r 0)
      + matmul (F := Ideal) (φ₁ := .f32) (φ₂ := .f32) dot_S64x8192_S1x8192_S64x1_1_1_0_0_n_n none U pr (constant S64x1 .f32 0x00000000#32) (ix2 r 0)
      + extractStridedSlice S64x1 ![0, 3] hb slices_S64x5_o0_3_S64x1 (ix2 r 0) = _
  rw [matrow_at, matrow_at, col3_at]
  rfl

/-- The output block at row r, from the eleven input blocks. -/
theorem cellOut_at (xr pr : Vec Ideal S1x8192 .f32) (hb : Vec Ideal S64x5 .f32)
    (fx fh ix ih bx bh ox oh : Vec Ideal S64x8192 .f32) (r : Fin 64) :
    cellOut (F := Ideal) xr pr hb fx fh ix ih bx bh ox oh (ix2 r 0)
      = Ideal.tanh (hb (ix2 r 0) * Ideal.logistic (blockPre fx fh xr pr hb 1 r)
          + Ideal.tanh (blockPre ix ih xr pr hb 2 r) * Ideal.logistic (blockPre bx bh xr pr hb 3 r))
        * Ideal.logistic (blockPre ox oh xr pr hb 4 r) := by
  unfold cellOut
  rw [View.canon_unit_zero origin2]
  simp only [View.ld_unit_zero (S := S1x8192) origin2, View.ld_unit_zero (S := S64x5) origin2, View.ld_unit_zero (S := S64x8192) origin2]
  unfold k0_pay1
  rw [row_x, row_pred]
  show Ideal.tanh (k0_pay5 (F := Ideal) hb (ix2 r 0) * Ideal.logistic (k0_pay7 (F := Ideal) xr pr hb fx fh (ix2 r 0))
        + Ideal.tanh (k0_pay8 (F := Ideal) xr pr hb ix ih (ix2 r 0)) * Ideal.logistic (k0_pay9 (F := Ideal) xr pr hb bx bh (ix2 r 0)))
      * Ideal.logistic (matmul (F := Ideal) (φ₁ := .f32) (φ₂ := .f32) dot_S64x8192_S1x8192_S64x1_1_1_0_0_n_n none ox xr (constant S64x1 .f32 0x00000000#32) (ix2 r 0)
          + matmul (F := Ideal) (φ₁ := .f32) (φ₂ := .f32) dot_S64x8192_S1x8192_S64x1_1_1_0_0_n_n none oh pr (constant S64x1 .f32 0x00000000#32) (ix2 r 0)
          + k0_pay6 (F := Ideal) hb (ix2 r 0)) = _
  rw [forget_at, input_at, candidate_at, matrow_at, matrow_at]
  unfold k0_pay5 k0_pay6
  rw [block5, col0_at, col4_at]
  rfl

end Cert.KernelIdeal.CellBlock

end
-- ==== Proof.CellSpec.lean ====
/-
  The single LSTM step the two programs compute, as one function of the fifteen argument arrays, on the extended reals.

  With x and pred the 8192 x 1 input and previous-prediction columns, and for each of the four gates a pair of
  8192 x 8192 weight matrices W, U and an 8192 x 1 bias b, the gate's pre-activation at row R is

      pre R = (sum over k of W (R, k) * x (k, 0)) + (sum over k of U (R, k) * pred (k, 0)) + b (R, 0).

  With s the logistic function 1 / (1 + exp (-z)), the new hidden value at row R is
      hidden (R, 0) * s (pre_forget R) + tanh (pre_input R) * s (pre_candidate R),
  and the result at row R is tanh of that, times s (pre_output R).
-/
import Idealize.ShloMosaic.PureOps.Ideal
import Idealize.ShloMosaic.Lib.ValueIdx

noncomputable section

namespace Cert.CellSpec

open Idealize.ShloMosaic Idealize.ShloMosaic.ValueIdx

/-- A column of 8192 entries and a square matrix of side 8192, as arrays of extended reals. -/
abbrev Col := (⟨2, ![8192, 1]⟩ : Shape).Idx → EReal
abbrev Mat := (⟨2, ![8192, 8192]⟩ : Shape).Idx → EReal

/-- The float pattern of 1.0 denotes the real number 1. -/
theorem one_f32 : Ideal.ofBits .f32 0x3F800000#32 = 1 := by
  simp [Ideal.ofBits, Ideal.ieee, -EReal.coe_mul]; norm_num

/-- A gate's pre-activation at row `R`: the two matrix-vector products' entries and the bias. -/
def gatePre (W U : Mat) (b x p : Col) (R : Fin 8192) : EReal :=
  (∑ k : Fin 8192, W (ix2 R k) * x (ix2 k 0)) + (∑ k : Fin 8192, U (ix2 R k) * p (ix2 k 0)) + b (ix2 R 0)

/-- The step's result at row `R`. -/
def cellAt (x p h : Col) (fx fh : Mat) (fb : Col) (ix ih : Mat) (ib : Col) (bx bh : Mat) (bb : Col)
    (ox oh : Mat) (ob : Col) (R : Fin 8192) : EReal :=
  Ideal.tanh (h (ix2 R 0) * Ideal.logistic (gatePre fx fh fb x p R)
      + Ideal.tanh (gatePre ix ih ib x p R) * Ideal.logistic (gatePre bx bh bb x p R))
    * Ideal.logistic (gatePre ox oh ob x p R)

/-- The result array: entry (R, 0) is the step's result at row R. -/
def cell (x p h : Col) (fx fh : Mat) (fb : Col) (ix ih : Mat) (ib : Col) (bx bh : Mat) (bb : Col)
    (ox oh : Mat) (ob : Col) : Col :=
  fun i => cellAt x p h fx fh fb ix ih ib bx bh bb ox oh ob (i 0)

theorem cell_ix2 (x p h : Col) (fx fh : Mat) (fb : Col) (ix ih : Mat) (ib : Col) (bx bh : Mat) (bb : Col)
    (ox oh : Mat) (ob : Col) (R : Fin 8192) (z : Fin 1) :
    cell x p h fx fh fb ix ih ib bx bh bb ox oh ob (ix2 R z) = cellAt x p h fx fh fb ix ih ib bx bh bb ox oh ob R := rfl

end Cert.CellSpec

end
-- ==== Proof.KernelIdealValue.lean ====
/-
  The array the region leaves in the result buffer is the LSTM step `Cert.CellSpec.cell` of the fifteen argument arrays.

  Grid point t is handed rows 64 t .. 64 t + 63 of the five-column array and of each weight matrix, and the two rows
  whole; row r of its blocks is row R = 64 t + r of the arrays. The row of x is the column x laid out along the second axis,
  so its entry (0, k) is x (k, 0); likewise pred. Column q of the five-column array is hidden_state (q = 0) or a gate's bias
  (q = 1 .. 4), so its entry (R, q) is that column's entry (R, 0). Hence a gate's pre-activation computed from the blocks at
  row r is the gate's pre-activation of the arrays at row R, and what point t writes back is rows 64 t .. 64 t + 63 of the
  step's result. The 128 points' output blocks tile the 8192 rows, so the result array ends holding the step everywhere.
-/
import proofs.«403898_j6545530159611_3_alg».proof.Proof.KernelIdealBlock
import proofs.«403898_j6545530159611_3_alg».proof.Proof.CellSpec
import Idealize.ShloMosaic.Lib.Pipeline.Value
import Idealize.ShloMosaic.Lib.ValueIdx
import Idealize.ShloMosaic.Lib.StableHlo.Run

set_option maxRecDepth 16384

noncomputable section

namespace Cert.KernelIdeal.CellValue

open Cert.KernelIdeal Cert.KernelIdeal.Gen Cert.KernelIdeal.Cell Cert.KernelIdeal.CellBlock Cert.CellSpec
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## Which block each window is handed at a point -/

/-- The two rows are one block, handed whole at every point. -/
theorem idx_rows : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)
/-- Every other window is handed block (t, 0) at point t. -/
theorem idx_2 : ∀ t : Fin cfg0.N, win0_2.index t (0 : Fin 2) = t.val ∧ win0_2.index t (1 : Fin 2) = 0 :=
  (by decide +kernel : ∀ t : Fin grid0.N, _)
theorem idx_3 : ∀ t : Fin cfg0.N, win0_3.index t (0 : Fin 2) = t.val ∧ win0_3.index t (1 : Fin 2) = 0 :=
  (by decide +kernel : ∀ t : Fin grid0.N, _)
theorem idx_4 : ∀ t : Fin cfg0.N, win0_4.index t (0 : Fin 2) = t.val ∧ win0_4.index t (1 : Fin 2) = 0 :=
  (by decide +kernel : ∀ t : Fin grid0.N, _)
theorem idx_5 : ∀ t : Fin cfg0.N, win0_5.index t (0 : Fin 2) = t.val ∧ win0_5.index t (1 : Fin 2) = 0 :=
  (by decide +kernel : ∀ t : Fin grid0.N, _)
theorem idx_6 : ∀ t : Fin cfg0.N, win0_6.index t (0 : Fin 2) = t.val ∧ win0_6.index t (1 : Fin 2) = 0 :=
  (by decide +kernel : ∀ t : Fin grid0.N, _)
theorem idx_7 : ∀ t : Fin cfg0.N, win0_7.index t (0 : Fin 2) = t.val ∧ win0_7.index t (1 : Fin 2) = 0 :=
  (by decide +kernel : ∀ t : Fin grid0.N, _)
theorem idx_8 : ∀ t : Fin cfg0.N, win0_8.index t (0 : Fin 2) = t.val ∧ win0_8.index t (1 : Fin 2) = 0 :=
  (by decide +kernel : ∀ t : Fin grid0.N, _)
theorem idx_9 : ∀ t : Fin cfg0.N, win0_9.index t (0 : Fin 2) = t.val ∧ win0_9.index t (1 : Fin 2) = 0 :=
  (by decide +kernel : ∀ t : Fin grid0.N, _)
theorem idx_10 : ∀ t : Fin cfg0.N, win0_10.index t (0 : Fin 2) = t.val ∧ win0_10.index t (1 : Fin 2) = 0 :=
  (by decide +kernel : ∀ t : Fin grid0.N, _)
theorem idx_11 : ∀ t : Fin cfg0.N, win0_11.index t (0 : Fin 2) = t.val ∧ win0_11.index t (1 : Fin 2) = 0 :=
  (by decide +kernel : ∀ t : Fin grid0.N, _)

/-- Row r of point t's blocks is row 64 t + r of the arrays. -/
def rowOf (t : Fin cfg0.N) (r : Fin 64) : Fin 8192 :=
  ⟨64 * t.val + r.val, by have h : t.val < 128 := lt_of_lt_of_eq t.isLt N_0; have := r.isLt; omega⟩

/-! ## The arrays the host operations write, as the region finds them -/

/-- The row of x: the column x along the second axis. -/
theorem rowx_at (c : Dev nD) (k : Fin 8192) :
    V (F := Ideal) m c main_v0 (ix2 0 k) = m ((c : Thread nD τ).loc main_arg0) (ix2 k 0) := by
  have e : (V (F := Ideal) m c main_v0 : S1x8192.Idx → EReal)
      = shapeCast S1x8192 (m ((c : Thread nD τ).loc main_arg0)) shapeCasts_S8192x1_S1x8192 := by
    dsimp only [V]
    simp only [hostOps0, List.flatten_cons, List.flatten_nil, List.append_nil]
    after_results
    rfl
  rw [e]
  exact shapeCast_apply _ _ (ix2 0 k) (ix2 k 0) (by rw [Shape.rowMajor_val_two, Shape.rowMajor_val_two]; simp)
/-- The row of pred: the column pred along the second axis. -/
theorem rowp_at (c : Dev nD) (k : Fin 8192) :
    V (F := Ideal) m c main_v1 (ix2 0 k) = m ((c : Thread nD τ).loc main_arg1) (ix2 k 0) := by
  have e : (V (F := Ideal) m c main_v1 : S1x8192.Idx → EReal)
      = shapeCast S1x8192 (m ((c : Thread nD τ).loc main_arg1)) shapeCasts_S8192x1_S1x8192 := by
    dsimp only [V]
    simp only [hostOps0, List.flatten_cons, List.flatten_nil, List.append_nil]
    after_results
    rfl
  rw [e]
  exact shapeCast_apply _ _ (ix2 0 k) (ix2 k 0) (by rw [Shape.rowMajor_val_two, Shape.rowMajor_val_two]; simp)

/-- hidden_state and the four bias columns, in the order the host places them side by side. -/
abbrev columns (c : Dev nD) : List ((s : Shape) × (s.Idx → EReal)) :=
  [⟨S8192x1, m ((c : Thread nD τ).loc main_arg2)⟩, ⟨S8192x1, m ((c : Thread nD τ).loc main_arg5)⟩,
   ⟨S8192x1, m ((c : Thread nD τ).loc main_arg8)⟩, ⟨S8192x1, m ((c : Thread nD τ).loc main_arg11)⟩,
   ⟨S8192x1, m ((c : Thread nD τ).loc main_arg14)⟩]

/-- The five-column array is their concatenation along the second axis. -/
theorem five_eq (c : Dev nD) :
    (V (F := Ideal) m c main_v2 : S8192x5.Idx → EReal)
      = concatenate S8192x5 1 (columns m c) concatenates_S8192x1_S8192x1_S8192x1_S8192x1_S8192x1_S8192x5_d1 := by
  dsimp only [V]
  simp only [hostOps0, List.flatten_cons, List.flatten_nil, List.append_nil]
  after_results
  rfl

/-- Its column q at row R is the q-th of those columns at row R. -/
theorem five0_at (c : Dev nD) (R : Fin 8192) :
    V (F := Ideal) m c main_v2 (ix2 R 0) = m ((c : Thread nD τ).loc main_arg2) (ix2 R 0) := by
  rw [five_eq]
  refine concatenate_apply_piece (t := S8192x5) 1 (columns m c) concatenates_S8192x1_S8192x1_S8192x1_S8192x1_S8192x1_S8192x5_d1
    (ix2 R 0) 0 (by show 0 < 5; omega) S8192x1 (m ((c : Thread nD τ).loc main_arg2)) rfl rfl 0 rfl (ix2 R 0) ?_ ?_
  · intro b hb
    match b with
    | ⟨0, _⟩ => rfl
    | ⟨1, _⟩ => exact absurd (Fin.ext rfl) hb
  · rfl
theorem five1_at (c : Dev nD) (R : Fin 8192) :
    V (F := Ideal) m c main_v2 (ix2 R 1) = m ((c : Thread nD τ).loc main_arg5) (ix2 R 0) := by
  rw [five_eq]
  refine concatenate_apply_piece (t := S8192x5) 1 (columns m c) concatenates_S8192x1_S8192x1_S8192x1_S8192x1_S8192x1_S8192x5_d1
    (ix2 R 1) 1 (by show 1 < 5; omega) S8192x1 (m ((c : Thread nD τ).loc main_arg5)) rfl rfl 1 rfl (ix2 R 0) ?_ ?_
  · intro b hb
    match b with
    | ⟨0, _⟩ => rfl
    | ⟨1, _⟩ => exact absurd (Fin.ext rfl) hb
  · rfl
theorem five2_at (c : Dev nD) (R : Fin 8192) :
    V (F := Ideal) m c main_v2 (ix2 R 2) = m ((c : Thread nD τ).loc main_arg8) (ix2 R 0) := by
  rw [five_eq]
  refine concatenate_apply_piece (t := S8192x5) 1 (columns m c) concatenates_S8192x1_S8192x1_S8192x1_S8192x1_S8192x1_S8192x5_d1
    (ix2 R 2) 2 (by show 2 < 5; omega) S8192x1 (m ((c : Thread nD τ).loc main_arg8)) rfl rfl 2 rfl (ix2 R 0) ?_ ?_
  · intro b hb
    match b with
    | ⟨0, _⟩ => rfl
    | ⟨1, _⟩ => exact absurd (Fin.ext rfl) hb
  · rfl
theorem five3_at (c : Dev nD) (R : Fin 8192) :
    V (F := Ideal) m c main_v2 (ix2 R 3) = m ((c : Thread nD τ).loc main_arg11) (ix2 R 0) := by
  rw [five_eq]
  refine concatenate_apply_piece (t := S8192x5) 1 (columns m c) concatenates_S8192x1_S8192x1_S8192x1_S8192x1_S8192x1_S8192x5_d1
    (ix2 R 3) 3 (by show 3 < 5; omega) S8192x1 (m ((c : Thread nD τ).loc main_arg11)) rfl rfl 3 rfl (ix2 R 0) ?_ ?_
  · intro b hb
    match b with
    | ⟨0, _⟩ => rfl
    | ⟨1, _⟩ => exact absurd (Fin.ext rfl) hb
  · rfl
theorem five4_at (c : Dev nD) (R : Fin 8192) :
    V (F := Ideal) m c main_v2 (ix2 R 4) = m ((c : Thread nD τ).loc main_arg14) (ix2 R 0) := by
  rw [five_eq]
  refine concatenate_apply_piece (t := S8192x5) 1 (columns m c) concatenates_S8192x1_S8192x1_S8192x1_S8192x1_S8192x1_S8192x5_d1
    (ix2 R 4) 4 (by show 4 < 5; omega) S8192x1 (m ((c : Thread nD τ).loc main_arg14)) rfl rfl 4 rfl (ix2 R 0) ?_ ?_
  · intro b hb
    match b with
    | ⟨0, _⟩ => rfl
    | ⟨1, _⟩ => exact absurd (Fin.ext rfl) hb
  · rfl

/-! ## The blocks at a point, read off the arrays -/

theorem blk0_at (c : Dev nD) (t : Fin cfg0.N) (k : Fin 8192) :
    iblk (F := Ideal) m c 0 t (ix2 0 k) = V (F := Ideal) m c main_v0 (ix2 0 k) := by
  unfold iblk
  show V m c main_v0 (((cfg0.win 0).blk t).view.emb (ix2 0 k)) = _
  obtain ⟨e0, e1, -, -⟩ := idx_rows t
  refine congrArg (V m c main_v0) (funext fun a => Fin.ext ?_)
  match a with
  | ⟨0, _⟩ => show win0_0.index t (0 : Fin 2) * 1 + 1 * 0 = 0; omega
  | ⟨1, _⟩ => show win0_0.index t (1 : Fin 2) * 8192 + 1 * k.val = k.val; omega
theorem blk1_at (c : Dev nD) (t : Fin cfg0.N) (k : Fin 8192) :
    iblk (F := Ideal) m c 1 t (ix2 0 k) = V (F := Ideal) m c main_v1 (ix2 0 k) := by
  unfold iblk
  show V m c main_v1 (((cfg0.win 1).blk t).view.emb (ix2 0 k)) = _
  obtain ⟨-, -, e0, e1⟩ := idx_rows t
  refine congrArg (V m c main_v1) (funext fun a => Fin.ext ?_)
  match a with
  | ⟨0, _⟩ => show win0_1.index t (0 : Fin 2) * 1 + 1 * 0 = 0; omega
  | ⟨1, _⟩ => show win0_1.index t (1 : Fin 2) * 8192 + 1 * k.val = k.val; omega
theorem blk2_at (c : Dev nD) (t : Fin cfg0.N) (r : Fin 64) (q : Fin 5) :
    iblk (F := Ideal) m c 2 t (ix2 r q) = V (F := Ideal) m c main_v2 (ix2 (rowOf t r) q) := by
  unfold iblk
  show V m c main_v2 (((cfg0.win 2).blk t).view.emb (ix2 r q)) = _
  obtain ⟨e0, e1⟩ := idx_2 t
  refine congrArg (V m c main_v2) (funext fun a => Fin.ext ?_)
  match a with
  | ⟨0, _⟩ => show win0_2.index t (0 : Fin 2) * 64 + 1 * r.val = 64 * t.val + r.val; omega
  | ⟨1, _⟩ => show win0_2.index t (1 : Fin 2) * 5 + 1 * q.val = q.val; omega
theorem blk3_at (c : Dev nD) (t : Fin cfg0.N) (r : Fin 64) (k : Fin 8192) :
    iblk (F := Ideal) m c 3 t (ix2 r k) = V (F := Ideal) m c main_arg3 (ix2 (rowOf t r) k) := by
  unfold iblk
  show V m c main_arg3 (((cfg0.win 3).blk t).view.emb (ix2 r k)) = _
  obtain ⟨e0, e1⟩ := idx_3 t
  refine congrArg (V m c main_arg3) (funext fun a => Fin.ext ?_)
  match a with
  | ⟨0, _⟩ => show win0_3.index t (0 : Fin 2) * 64 + 1 * r.val = 64 * t.val + r.val; omega
  | ⟨1, _⟩ => show win0_3.index t (1 : Fin 2) * 8192 + 1 * k.val = k.val; omega
theorem blk4_at (c : Dev nD) (t : Fin cfg0.N) (r : Fin 64) (k : Fin 8192) :
    iblk (F := Ideal) m c 4 t (ix2 r k) = V (F := Ideal) m c main_arg4 (ix2 (rowOf t r) k) := by
  unfold iblk
  show V m c main_arg4 (((cfg0.win 4).blk t).view.emb (ix2 r k)) = _
  obtain ⟨e0, e1⟩ := idx_4 t
  refine congrArg (V m c main_arg4) (funext fun a => Fin.ext ?_)
  match a with
  | ⟨0, _⟩ => show win0_4.index t (0 : Fin 2) * 64 + 1 * r.val = 64 * t.val + r.val; omega
  | ⟨1, _⟩ => show win0_4.index t (1 : Fin 2) * 8192 + 1 * k.val = k.val; omega
theorem blk5_at (c : Dev nD) (t : Fin cfg0.N) (r : Fin 64) (k : Fin 8192) :
    iblk (F := Ideal) m c 5 t (ix2 r k) = V (F := Ideal) m c main_arg6 (ix2 (rowOf t r) k) := by
  unfold iblk
  show V m c main_arg6 (((cfg0.win 5).blk t).view.emb (ix2 r k)) = _
  obtain ⟨e0, e1⟩ := idx_5 t
  refine congrArg (V m c main_arg6) (funext fun a => Fin.ext ?_)
  match a with
  | ⟨0, _⟩ => show win0_5.index t (0 : Fin 2) * 64 + 1 * r.val = 64 * t.val + r.val; omega
  | ⟨1, _⟩ => show win0_5.index t (1 : Fin 2) * 8192 + 1 * k.val = k.val; omega
theorem blk6_at (c : Dev nD) (t : Fin cfg0.N) (r : Fin 64) (k : Fin 8192) :
    iblk (F := Ideal) m c 6 t (ix2 r k) = V (F := Ideal) m c main_arg7 (ix2 (rowOf t r) k) := by
  unfold iblk
  show V m c main_arg7 (((cfg0.win 6).blk t).view.emb (ix2 r k)) = _
  obtain ⟨e0, e1⟩ := idx_6 t
  refine congrArg (V m c main_arg7) (funext fun a => Fin.ext ?_)
  match a with
  | ⟨0, _⟩ => show win0_6.index t (0 : Fin 2) * 64 + 1 * r.val = 64 * t.val + r.val; omega
  | ⟨1, _⟩ => show win0_6.index t (1 : Fin 2) * 8192 + 1 * k.val = k.val; omega
theorem blk7_at (c : Dev nD) (t : Fin cfg0.N) (r : Fin 64) (k : Fin 8192) :
    iblk (F := Ideal) m c 7 t (ix2 r k) = V (F := Ideal) m c main_arg9 (ix2 (rowOf t r) k) := by
  unfold iblk
  show V m c main_arg9 (((cfg0.win 7).blk t).view.emb (ix2 r k)) = _
  obtain ⟨e0, e1⟩ := idx_7 t
  refine congrArg (V m c main_arg9) (funext fun a => Fin.ext ?_)
  match a with
  | ⟨0, _⟩ => show win0_7.index t (0 : Fin 2) * 64 + 1 * r.val = 64 * t.val + r.val; omega
  | ⟨1, _⟩ => show win0_7.index t (1 : Fin 2) * 8192 + 1 * k.val = k.val; omega
theorem blk8_at (c : Dev nD) (t : Fin cfg0.N) (r : Fin 64) (k : Fin 8192) :
    iblk (F := Ideal) m c 8 t (ix2 r k) = V (F := Ideal) m c main_arg10 (ix2 (rowOf t r) k) := by
  unfold iblk
  show V m c main_arg10 (((cfg0.win 8).blk t).view.emb (ix2 r k)) = _
  obtain ⟨e0, e1⟩ := idx_8 t
  refine congrArg (V m c main_arg10) (funext fun a => Fin.ext ?_)
  match a with
  | ⟨0, _⟩ => show win0_8.index t (0 : Fin 2) * 64 + 1 * r.val = 64 * t.val + r.val; omega
  | ⟨1, _⟩ => show win0_8.index t (1 : Fin 2) * 8192 + 1 * k.val = k.val; omega
theorem blk9_at (c : Dev nD) (t : Fin cfg0.N) (r : Fin 64) (k : Fin 8192) :
    iblk (F := Ideal) m c 9 t (ix2 r k) = V (F := Ideal) m c main_arg12 (ix2 (rowOf t r) k) := by
  unfold iblk
  show V m c main_arg12 (((cfg0.win 9).blk t).view.emb (ix2 r k)) = _
  obtain ⟨e0, e1⟩ := idx_9 t
  refine congrArg (V m c main_arg12) (funext fun a => Fin.ext ?_)
  match a with
  | ⟨0, _⟩ => show win0_9.index t (0 : Fin 2) * 64 + 1 * r.val = 64 * t.val + r.val; omega
  | ⟨1, _⟩ => show win0_9.index t (1 : Fin 2) * 8192 + 1 * k.val = k.val; omega
theorem blk10_at (c : Dev nD) (t : Fin cfg0.N) (r : Fin 64) (k : Fin 8192) :
    iblk (F := Ideal) m c 10 t (ix2 r k) = V (F := Ideal) m c main_arg13 (ix2 (rowOf t r) k) := by
  unfold iblk
  show V m c main_arg13 (((cfg0.win 10).blk t).view.emb (ix2 r k)) = _
  obtain ⟨e0, e1⟩ := idx_10 t
  refine congrArg (V m c main_arg13) (funext fun a => Fin.ext ?_)
  match a with
  | ⟨0, _⟩ => show win0_10.index t (0 : Fin 2) * 64 + 1 * r.val = 64 * t.val + r.val; omega
  | ⟨1, _⟩ => show win0_10.index t (1 : Fin 2) * 8192 + 1 * k.val = k.val; omega

/-! ## A gate's pre-activation from the blocks is its pre-activation of the arrays -/

/-- If row r of the two matrix blocks is row R of two matrices, the two rows are two columns laid along the second axis, and
    the block's column q at row r is a bias column at row R, then the pre-activation of the blocks at row r is the
    pre-activation of the arrays at row R: the sums agree term by term. -/
theorem blockPre_eq_gatePre (W U : Vec Ideal S64x8192 .f32) (xr pr : Vec Ideal S1x8192 .f32) (hb : Vec Ideal S64x5 .f32)
    (q : Fin 5) (r : Fin 64) (W' U' : Mat) (b' x' p' : Col) (R : Fin 8192)
    (hW : ∀ k : Fin 8192, W (ix2 r k) = W' (ix2 R k)) (hU : ∀ k : Fin 8192, U (ix2 r k) = U' (ix2 R k))
    (hx : ∀ k : Fin 8192, xr (ix2 0 k) = x' (ix2 k 0)) (hp : ∀ k : Fin 8192, pr (ix2 0 k) = p' (ix2 k 0))
    (hq : hb (ix2 r q) = b' (ix2 R 0)) :
    blockPre W U xr pr hb q r = gatePre W' U' b' x' p' R := by
  unfold blockPre gatePre
  have h1 : (∑ k : Fin 8192, W (ix2 r k) * xr (ix2 0 k)) = ∑ k : Fin 8192, W' (ix2 R k) * x' (ix2 k 0) :=
    Finset.sum_congr rfl fun k _ => by rw [hW k, hx k]
  have h2 : (∑ k : Fin 8192, U (ix2 r k) * pr (ix2 0 k)) = ∑ k : Fin 8192, U' (ix2 R k) * p' (ix2 k 0) :=
    Finset.sum_congr rfl fun k _ => by rw [hU k, hp k]
  rw [h1, h2, hq]

theorem pre_forget (c : Dev nD) (t : Fin cfg0.N) (r : Fin 64) :
    blockPre (iblk (F := Ideal) m c 3 t) (iblk (F := Ideal) m c 4 t) (iblk (F := Ideal) m c 0 t) (iblk (F := Ideal) m c 1 t) (iblk (F := Ideal) m c 2 t) 1 r
      = gatePre (m ((c : Thread nD τ).loc main_arg3)) (m ((c : Thread nD τ).loc main_arg4)) (m ((c : Thread nD τ).loc main_arg5))
          (m ((c : Thread nD τ).loc main_arg0)) (m ((c : Thread nD τ).loc main_arg1)) (rowOf t r) :=
  blockPre_eq_gatePre (iblk (F := Ideal) m c 3 t) (iblk (F := Ideal) m c 4 t) (iblk (F := Ideal) m c 0 t) (iblk (F := Ideal) m c 1 t)
    (iblk (F := Ideal) m c 2 t) 1 r (m ((c : Thread nD τ).loc main_arg3)) (m ((c : Thread nD τ).loc main_arg4))
    (m ((c : Thread nD τ).loc main_arg5)) (m ((c : Thread nD τ).loc main_arg0)) (m ((c : Thread nD τ).loc main_arg1)) (rowOf t r)
    (fun k => (blk3_at m c t r k).trans (congrFun (V_main_arg3 m c) _)) (fun k => (blk4_at m c t r k).trans (congrFun (V_main_arg4 m c) _))
    (fun k => (blk0_at m c t k).trans (rowx_at m c k)) (fun k => (blk1_at m c t k).trans (rowp_at m c k))
    ((blk2_at m c t r 1).trans (five1_at m c (rowOf t r)))
theorem pre_input (c : Dev nD) (t : Fin cfg0.N) (r : Fin 64) :
    blockPre (iblk (F := Ideal) m c 5 t) (iblk (F := Ideal) m c 6 t) (iblk (F := Ideal) m c 0 t) (iblk (F := Ideal) m c 1 t) (iblk (F := Ideal) m c 2 t) 2 r
      = gatePre (m ((c : Thread nD τ).loc main_arg6)) (m ((c : Thread nD τ).loc main_arg7)) (m ((c : Thread nD τ).loc main_arg8))
          (m ((c : Thread nD τ).loc main_arg0)) (m ((c : Thread nD τ).loc main_arg1)) (rowOf t r) :=
  blockPre_eq_gatePre (iblk (F := Ideal) m c 5 t) (iblk (F := Ideal) m c 6 t) (iblk (F := Ideal) m c 0 t) (iblk (F := Ideal) m c 1 t)
    (iblk (F := Ideal) m c 2 t) 2 r (m ((c : Thread nD τ).loc main_arg6)) (m ((c : Thread nD τ).loc main_arg7))
    (m ((c : Thread nD τ).loc main_arg8)) (m ((c : Thread nD τ).loc main_arg0)) (m ((c : Thread nD τ).loc main_arg1)) (rowOf t r)
    (fun k => (blk5_at m c t r k).trans (congrFun (V_main_arg6 m c) _)) (fun k => (blk6_at m c t r k).trans (congrFun (V_main_arg7 m c) _))
    (fun k => (blk0_at m c t k).trans (rowx_at m c k)) (fun k => (blk1_at m c t k).trans (rowp_at m c k))
    ((blk2_at m c t r 2).trans (five2_at m c (rowOf t r)))
theorem pre_candidate (c : Dev nD) (t : Fin cfg0.N) (r : Fin 64) :
    blockPre (iblk (F := Ideal) m c 7 t) (iblk (F := Ideal) m c 8 t) (iblk (F := Ideal) m c 0 t) (iblk (F := Ideal) m c 1 t) (iblk (F := Ideal) m c 2 t) 3 r
      = gatePre (m ((c : Thread nD τ).loc main_arg9)) (m ((c : Thread nD τ).loc main_arg10)) (m ((c : Thread nD τ).loc main_arg11))
          (m ((c : Thread nD τ).loc main_arg0)) (m ((c : Thread nD τ).loc main_arg1)) (rowOf t r) :=
  blockPre_eq_gatePre (iblk (F := Ideal) m c 7 t) (iblk (F := Ideal) m c 8 t) (iblk (F := Ideal) m c 0 t) (iblk (F := Ideal) m c 1 t)
    (iblk (F := Ideal) m c 2 t) 3 r (m ((c : Thread nD τ).loc main_arg9)) (m ((c : Thread nD τ).loc main_arg10))
    (m ((c : Thread nD τ).loc main_arg11)) (m ((c : Thread nD τ).loc main_arg0)) (m ((c : Thread nD τ).loc main_arg1)) (rowOf t r)
    (fun k => (blk7_at m c t r k).trans (congrFun (V_main_arg9 m c) _)) (fun k => (blk8_at m c t r k).trans (congrFun (V_main_arg10 m c) _))
    (fun k => (blk0_at m c t k).trans (rowx_at m c k)) (fun k => (blk1_at m c t k).trans (rowp_at m c k))
    ((blk2_at m c t r 3).trans (five3_at m c (rowOf t r)))
theorem pre_output (c : Dev nD) (t : Fin cfg0.N) (r : Fin 64) :
    blockPre (iblk (F := Ideal) m c 9 t) (iblk (F := Ideal) m c 10 t) (iblk (F := Ideal) m c 0 t) (iblk (F := Ideal) m c 1 t) (iblk (F := Ideal) m c 2 t) 4 r
      = gatePre (m ((c : Thread nD τ).loc main_arg12)) (m ((c : Thread nD τ).loc main_arg13)) (m ((c : Thread nD τ).loc main_arg14))
          (m ((c : Thread nD τ).loc main_arg0)) (m ((c : Thread nD τ).loc main_arg1)) (rowOf t r) :=
  blockPre_eq_gatePre (iblk (F := Ideal) m c 9 t) (iblk (F := Ideal) m c 10 t) (iblk (F := Ideal) m c 0 t) (iblk (F := Ideal) m c 1 t)
    (iblk (F := Ideal) m c 2 t) 4 r (m ((c : Thread nD τ).loc main_arg12)) (m ((c : Thread nD τ).loc main_arg13))
    (m ((c : Thread nD τ).loc main_arg14)) (m ((c : Thread nD τ).loc main_arg0)) (m ((c : Thread nD τ).loc main_arg1)) (rowOf t r)
    (fun k => (blk9_at m c t r k).trans (congrFun (V_main_arg12 m c) _)) (fun k => (blk10_at m c t r k).trans (congrFun (V_main_arg13 m c) _))
    (fun k => (blk0_at m c t k).trans (rowx_at m c k)) (fun k => (blk1_at m c t k).trans (rowp_at m c k))
    ((blk2_at m c t r 4).trans (five4_at m c (rowOf t r)))

/-! ## What a point writes back, the cover, and the result array -/

/-- The step of the launched argument arrays on core `c`. -/
abbrev result (c : Dev nD) : S8192x1.Idx → EReal :=
  cell (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))

/-- Point t writes back rows 64 t .. 64 t + 63 of the step's result. -/
theorem flushed_eq (c : Dev nD) (t : Fin cfg0.N) :
    (dats (F := Ideal) m 0 c).flushed 11 t = ((cfg0.win 11).blk t).view.read (Elt Ideal) (result m c) := by
  show (cfg0.win 11).cut (grid0.coords t) ((dats m 0 c).after 11 t) = _
  rw [after0_11]
  funext j
  obtain ⟨r, z, rfl⟩ : ∃ (r : Fin 64) (z : Fin 1), j = ix2 r z := ⟨j 0, j 1, eq_ix2 (n0 := 64) (n1 := 1) j⟩
  obtain rfl : z = 0 := Fin.ext (Nat.lt_one_iff.mp z.isLt)
  show cellOut (iblk m c 0 t) (iblk m c 1 t) (iblk m c 2 t) (iblk m c 3 t) (iblk m c 4 t) (iblk m c 5 t) (iblk m c 6 t)
        (iblk m c 7 t) (iblk m c 8 t) (iblk m c 9 t) (iblk m c 10 t) (ix2 r 0)
      = result m c (((cfg0.win 11).blk t).view.emb (ix2 r 0))
  obtain ⟨e0, e1⟩ := idx_11 t
  have hemb : ((cfg0.win 11).blk t).view.emb (ix2 r (0 : Fin 1)) = ix2 (rowOf t r) 0 :=
    funext fun a => Fin.ext (by
      match a with
      | ⟨0, _⟩ => show win0_11.index t (0 : Fin 2) * 64 + 1 * r.val = 64 * t.val + r.val; omega
      | ⟨1, _⟩ => show win0_11.index t (1 : Fin 2) * 1 + 1 * 0 = 0; omega)
  rw [hemb]
  refine (cellOut_at (iblk m c 0 t) (iblk m c 1 t) (iblk m c 2 t) (iblk m c 3 t) (iblk m c 4 t) (iblk m c 5 t) (iblk m c 6 t)
    (iblk m c 7 t) (iblk m c 8 t) (iblk m c 9 t) (iblk m c 10 t) r).trans ?_
  rw [pre_forget, pre_input, pre_candidate, pre_output, blk2_at, five0_at]
  rfl

/-- An index is in point t's output block iff each coordinate is in the block's range on its axis. -/
theorem mem_out (t : Fin cfg0.N) (i : S8192x1.Idx) :
    i ∈ ((cfg0.win 11).blk t).view.set ↔ ∀ a : Fin 2, win0_11.index t a * S64x1.size a ≤ (i a).val ∧ (i a).val < win0_11.index t a * S64x1.size a + S64x1.size a := by
  show i ∈ ((View.whole main_v3).slice (win0_11.rect t)).set ↔ _
  rw [View.set_slice_whole, Rect.mem_set_unit]
  exact Iff.rfl

/-- Row R is in the output block of point R / 64, which writes its block back. -/
theorem covered (i : S8192x1.Idx) : ∃ t : Fin cfg0.N, (cfg0.win 11).flush t = true ∧ i ∈ ((cfg0.win 11).blk t).view.set := by
  have hi0 : (i 0).val < 8192 := (i 0).isLt
  have hi1 : (i 1).val < 1 := (i 1).isLt
  have ht : (i 0).val / 64 < cfg0.N := lt_of_lt_of_eq (by omega : (i 0).val / 64 < 128) N_0.symm
  obtain ⟨e0, e1⟩ := idx_11 ⟨(i 0).val / 64, ht⟩
  refine ⟨⟨(i 0).val / 64, ht⟩, flush0_11 _, ?_⟩
  rw [mem_out]
  intro a
  match a with
  | ⟨0, _⟩ =>
    show win0_11.index ⟨(i 0).val / 64, ht⟩ (0 : Fin 2) * 64 ≤ (i 0).val ∧ (i 0).val < win0_11.index ⟨(i 0).val / 64, ht⟩ (0 : Fin 2) * 64 + 64
    have e0' : win0_11.index ⟨(i 0).val / 64, ht⟩ (0 : Fin 2) = (i 0).val / 64 := e0
    omega
  | ⟨1, _⟩ =>
    show win0_11.index ⟨(i 0).val / 64, ht⟩ (1 : Fin 2) * 1 ≤ (i 1).val ∧ (i 1).val < win0_11.index ⟨(i 0).val / 64, ht⟩ (1 : Fin 2) * 1 + 1
    omega

/-- The result array after the run is the step of the launched arguments. -/
theorem final (c : Dev nD) : (dats (F := Ideal) m 0 c).arrAt 11 cfg0.N = result m c :=
  (dats m 0 c).arrAt_eq_of_cover 11 (result m c) (fun t _ => flushed_eq m c t) covered

/-- Every weakly fair execution of @main terminates without a fault, with the result array at the step of the launched
    arguments and the fifteen argument arrays unchanged. -/
theorem run : θ_run defs (onTc (τ := τ) (main (F := Ideal))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨((h c).1 11).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).1 5).trans (((dats m 0 c).arrAt_in 5 rfl _).trans ((A_eq m c 5).trans (V_main_arg6 m c))),
      ((h c).1 6).trans (((dats m 0 c).arrAt_in 6 rfl _).trans ((A_eq m c 6).trans (V_main_arg7 m c))),
      ((h c).2 main_arg8 (Pipeline.mem_restRefs_of main_arg8 (by decide) (by decide))).trans (V_main_arg8 m c),
      ((h c).1 7).trans (((dats m 0 c).arrAt_in 7 rfl _).trans ((A_eq m c 7).trans (V_main_arg9 m c))),
      ((h c).1 8).trans (((dats m 0 c).arrAt_in 8 rfl _).trans ((A_eq m c 8).trans (V_main_arg10 m c))),
      ((h c).2 main_arg11 (Pipeline.mem_restRefs_of main_arg11 (by decide) (by decide))).trans (V_main_arg11 m c),
      ((h c).1 9).trans (((dats m 0 c).arrAt_in 9 rfl _).trans ((A_eq m c 9).trans (V_main_arg12 m c))),
      ((h c).1 10).trans (((dats m 0 c).arrAt_in 10 rfl _).trans ((A_eq m c 10).trans (V_main_arg13 m c))),
      ((h c).2 main_arg14 (Pipeline.mem_restRefs_of main_arg14 (by decide) (by decide))).trans (V_main_arg14 m c)⟩)
    (run_main m ρ)

end Cert.KernelIdeal.CellValue

end
-- ==== Proof.RefCell.lean ====
/-
  The reference's result array is the LSTM step `Cert.CellSpec.cell` of its fifteen arguments.

  The reference computes each gate's pre-activation as two matrix-vector products and a bias, each product a
  `dot_general` contracting the matrix's second axis with the column's first: its entry at row R is the sum over k of
  W (R, k) * x (k, 0). It spells the logistic function out as 1 / (1 + exp (-v)) with the constant 1.0 broadcast to a
  column; on the extended reals that quotient is `Ideal.logistic v` by definition, once the float pattern of 1.0 is read
  as the number 1. The remaining operations are entrywise products, sums and tanh, in the order of the step's formula.
-/
import proofs.«403898_j6545530159611_3_alg».proof.Proof.Gen.ReferenceIdeal.Read
import proofs.«403898_j6545530159611_3_alg».proof.Proof.CellSpec

noncomputable section

namespace Cert.ReferenceIdeal.RefCell

open Cert.ReferenceIdeal Cert.ReferenceIdeal.Gen Cert.ReferenceIdeal.Read Cert.CellSpec
open Idealize.ShloMosaic Idealize.ShloMosaic.ValueIdx

/-- The reference's columns and matrices, typed as its buffers are: arrays of f32 entries, which at the ideal values are
    extended reals (the specification's `Col` and `Mat` are these types unfolded). -/
abbrev RCol := (⟨S8192x1, .f32⟩ : BufTy).Contents (Elt Ideal)
abbrev RMat := (⟨S8192x8192, .f32⟩ : BufTy).Contents (Elt Ideal)

/-- A coordinate on an axis of extent one is zero. -/
theorem fin_one_eq_zero (z : Fin 1) : z = 0 := Fin.ext (Nat.lt_one_iff.mp z.isLt)

/-- A matrix-vector product's entry at row `R`: the sum over the contracted coordinate. -/
theorem matvec_at (W : RMat) (x : RCol) (R : Fin 8192) (z : Fin 1) :
    Host.dotGeneral (F := Ideal) (φ₁ := .f32) (φ₂ := .f32) dot_S8192x8192_S8192x1_S8192x1_1_0_0_1_n_n none W x (ix2 R z)
      = ∑ k : Fin 8192, W (ix2 R k) * x (ix2 k 0) := by
  obtain rfl := fin_one_eq_zero z
  refine (val_main_v0_apply x W (ix2 R 0)).trans (Finset.sum_congr rfl fun k _ => ?_)
  have el : lidx_main_v0 (ix2 R (0 : Fin 1)) k = ix2 R k :=
    funext fun a => Fin.ext (by match a with | ⟨0, _⟩ => rfl | ⟨1, _⟩ => rfl)
  have er : ridx_main_v0 (ix2 R (0 : Fin 1)) k = ix2 k 0 :=
    funext fun a => Fin.ext (by match a with | ⟨0, _⟩ => rfl | ⟨1, _⟩ => rfl)
  rw [el, er]

/-- A gate's pre-activation column, as the reference spells it, is `gatePre` row by row. -/
theorem pre_col (W U : RMat) (b x p : RCol) :
    addf (F := Ideal) (addf (F := Ideal) (Host.dotGeneral (F := Ideal) (φ₁ := .f32) (φ₂ := .f32) dot_S8192x8192_S8192x1_S8192x1_1_0_0_1_n_n none W x)
        (Host.dotGeneral (F := Ideal) (φ₁ := .f32) (φ₂ := .f32) dot_S8192x8192_S8192x1_S8192x1_1_0_0_1_n_n none U p)) b
      = fun i => gatePre W U b x p (i 0) := by
  funext i
  obtain ⟨R, z, rfl⟩ : ∃ (R : Fin 8192) (z : Fin 1), i = ix2 R z := ⟨i 0, i 1, eq_ix2 i⟩
  show Host.dotGeneral (F := Ideal) (φ₁ := .f32) (φ₂ := .f32) dot_S8192x8192_S8192x1_S8192x1_1_0_0_1_n_n none W x (ix2 R z)
      + Host.dotGeneral (F := Ideal) (φ₁ := .f32) (φ₂ := .f32) dot_S8192x8192_S8192x1_S8192x1_1_0_0_1_n_n none U p (ix2 R z) + b (ix2 R z) = _
  rw [matvec_at, matvec_at]
  obtain rfl := fin_one_eq_zero z
  rfl

/-- The constant 1.0 broadcast to a column is 1 at every entry. -/
theorem one_col (i : S8192x1.Idx) :
    broadcastInDim S8192x1 ![] bcast_S_S8192x1 (constant (F := Ideal) S_ .f32 0x3F800000#32) i = 1 :=
  (broadcastInDim_apply _ bcast_S_S8192x1 (constant (F := Ideal) S_ .f32 0x3F800000#32) i (fun a => a.elim0) (fun a => a.elim0)).trans one_f32

/-- The quotient 1 / (1 + exp (-v)) the reference spells out is the logistic function, entry by entry. -/
theorem logistic_col (v : RCol) :
    Host.divf (F := Ideal) (broadcastInDim S8192x1 ![] bcast_S_S8192x1 (constant (F := Ideal) S_ .f32 0x3F800000#32))
        (addf (F := Ideal) (broadcastInDim S8192x1 ![] bcast_S_S8192x1 (constant (F := Ideal) S_ .f32 0x3F800000#32))
          (Host.exp (F := Ideal) (Host.negf (F := Ideal) v)))
      = fun i => Ideal.logistic (v i) := by
  funext i
  show Ideal.div (broadcastInDim S8192x1 ![] bcast_S_S8192x1 (constant (F := Ideal) S_ .f32 0x3F800000#32) i)
      (broadcastInDim S8192x1 ![] bcast_S_S8192x1 (constant (F := Ideal) S_ .f32 0x3F800000#32) i + Ideal.exp (-(v i))) = _
  rw [one_col]
  rfl

/-- The reference's last stage, as a function of the fifteen arguments, is the step. -/
theorem ref_eq_cell (x0 x1 x2 : RCol) (x3 x4 : RMat) (x5 : RCol) (x6 x7 : RMat) (x8 : RCol) (x9 x10 : RMat) (x11 : RCol)
    (x12 x13 : RMat) (x14 : RCol) :
    val_main_v39 (F := Ideal) x0 x1 x2 x3 x4 x5 x6 x7 x8 x9 x10 x11 x12 x13 x14
      = cell x0 x1 x2 x3 x4 x5 x6 x7 x8 x9 x10 x11 x12 x13 x14 := by
  rw [← val_main_v39_eq]
  rw [pre_col x3 x4 x5 x0 x1, pre_col x6 x7 x8 x0 x1, pre_col x9 x10 x11 x0 x1, pre_col x12 x13 x14 x0 x1]
  rw [logistic_col (fun i => gatePre x3 x4 x5 x0 x1 (i 0)), logistic_col (fun i => gatePre x9 x10 x11 x0 x1 (i 0)),
    logistic_col (fun i => gatePre x12 x13 x14 x0 x1 (i 0))]
  funext i
  obtain ⟨R, z, rfl⟩ : ∃ (R : Fin 8192) (z : Fin 1), i = ix2 R z := ⟨i 0, i 1, eq_ix2 i⟩
  obtain rfl := fin_one_eq_zero z
  rfl

end Cert.ReferenceIdeal.RefCell

end
-- ==== Proof.lean ====
/-
  The certificate: a single LSTM step computed by a pipelined kernel and by a plain reference are the same function of
  their fifteen arguments on the extended reals, and each program runs to the end without a fault and leaves its
  arguments unchanged.

  Both programs compute, at each of 8192 rows R, four gate pre-activations
      pre R = (sum over k of W (R, k) * x (k, 0)) + (sum over k of U (R, k) * pred (k, 0)) + b (R, 0)
  and return tanh (hidden R * s (forget) + tanh (input) * s (candidate)) * s (output), with s the logistic function.
  The kernel takes the rows 64 at a time, keeps x and pred as rows and the hidden state and biases as the five columns of one
  array, and forms each product by contracting the last axis of a matrix block with a row; the reference forms each product
  over the whole matrix and spells s out as 1 / (1 + exp (-z)), which on the extended reals is the logistic function by
  definition. Sums and products are taken in the same order on both sides, so no law of the extended reals beyond the
  definitions is used and the finiteness of the inputs is never needed.

  The idealization rewrote no operation of the kernel, so there is nothing to preserve.
-/
import proofs.«403898_j6545530159611_3_alg».proof.Defs
import proofs.«403898_j6545530159611_3_alg».proof.Proof.Gen.Kernel
import proofs.«403898_j6545530159611_3_alg».proof.Proof.Gen.Kernel.Skeleton
import proofs.«403898_j6545530159611_3_alg».proof.Proof.Gen.Kernel.Launch
import proofs.«403898_j6545530159611_3_alg».proof.Proof.Gen.Kernel.Points
import proofs.«403898_j6545530159611_3_alg».proof.Proof.Gen.KernelIdeal
import proofs.«403898_j6545530159611_3_alg».proof.Proof.Gen.KernelIdeal.Skeleton
import proofs.«403898_j6545530159611_3_alg».proof.Proof.Gen.KernelIdeal.Launch
import proofs.«403898_j6545530159611_3_alg».proof.Proof.Gen.KernelIdeal.Points
import proofs.«403898_j6545530159611_3_alg».proof.Proof.Gen.ReferenceIdeal
import proofs.«403898_j6545530159611_3_alg».proof.Proof.Gen.ReferenceIdeal.Run
import proofs.«403898_j6545530159611_3_alg».proof.Proof.Gen.ReferenceIdeal.Read
import proofs.«403898_j6545530159611_3_alg».proof.Proof.Gen.Pre_finite_inputs
import proofs.«403898_j6545530159611_3_alg».proof.Proof.KernelCell
import proofs.«403898_j6545530159611_3_alg».proof.Proof.KernelIdealValue
import proofs.«403898_j6545530159611_3_alg».proof.Proof.RefCell
import Idealize.ShloMosaic.Adequacy
import Idealize.ShloMosaic.Init

noncomputable section

namespace Cert.Proof

open Idealize.ShloMosaic Idealize.SL.Sem

/-- The word-level kernel program runs to the end and leaves its arguments as launched. -/
theorem frame_kernel : Cert.frame_Kernel := fun m ρ _ => Cert.Kernel.Cell.frame m ρ

/-- So does its idealization. -/
theorem frame_kernelIdeal : Cert.frame_KernelIdeal := fun m ρ _ => Cert.KernelIdeal.Cell.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the fifteen arguments the kernel's result array and the reference's are the step of
    those arguments: the kernel's by its run read block by block, the reference's by its run read operation by
    operation. -/
theorem algebraic : Cert.algebraic_KernelIdeal_ReferenceIdeal := by
  intro m ρ m' ρ' _ hagree
  refine ⟨fun c => Cert.KernelIdeal.CellValue.result m c, Cert.KernelIdeal.CellValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, Cert.ReferenceIdeal.RefCell.ref_eq_cell]
  obtain ⟨h0, h1, h2, h3, h4, h5, h6, h7, h8, h9, h10, h11, h12, h13, h14⟩ := hagree c
  rw [h0, h1, h2, h3, h4, h5, h6, h7, h8, h9, h10, h11, h12, h13, h14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
